-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x16 .f32) (main_arg1 : FVec F S16x16 .f32) (main_arg2 : FVec F S16 .f32) (main_arg3 : FVec F S16x2 .f32) (main_arg4 : FVec F S2 .f32) (main_arg5 : IVec S2x3200000 32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S25000x16 : Shape := ⟨2, ![25000, 16]⟩
abbrev S3400000x16 : Shape := ⟨2, ![3400000, 16]⟩
abbrev S1x16 : Shape := ⟨2, ![1, 16]⟩
abbrev S200000x2 : Shape := ⟨2, ![200000, 2]⟩
abbrev S25000x2 : Shape := ⟨2, ![25000, 2]⟩
abbrev S3400000x2 : Shape := ⟨2, ![3400000, 2]⟩
abbrev S1x2 : Shape := ⟨2, ![1, 2]⟩
abbrev S25000 : Shape := ⟨1, ![25000]⟩
abbrev S25000x1 : Shape := ⟨2, ![25000, 1]⟩

abbrev nBuf : Space → Nat
  | .hbm => 85
  | .vmem => 16
  | .smem => 0
  | _ => 0

abbrev bufTy : (tb : Table) → Fin (tcTables nBuf tb) → BufTy
  | .hbm, ⟨0, _⟩ => ⟨S200000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S200000, .i32⟩
  | .hbm, ⟨7, _⟩ => ⟨S1x3200000, .i32⟩
  | .hbm, ⟨8, _⟩ => ⟨S3200000, .i32⟩
  | .hbm, ⟨9, _⟩ => ⟨S3400000, .i32⟩
  | .hbm, ⟨10, _⟩ => ⟨S1x3200000, .i32⟩
  | .hbm, ⟨11, _⟩ => ⟨S3200000, .i32⟩
  | .hbm, ⟨12, _⟩ => ⟨S3400000, .i32⟩
  | .hbm, ⟨13, _⟩ => ⟨S_, .f32⟩
  | .hbm, ⟨14, _⟩ => ⟨S3400000, .f32⟩
  | .hbm, ⟨15, _⟩ => ⟨S_, .f32⟩
  | .hbm, ⟨16, _⟩ => ⟨S200000, .f32⟩
  | .hbm, ⟨17, _⟩ => ⟨S3400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S3400000, .i32⟩
  | .hbm, ⟨32, _⟩ => ⟨S3400000, .i1⟩
  | .hbm, ⟨33, _⟩ => ⟨S_, .i32⟩
  | .hbm, ⟨34, _⟩ => ⟨S3400000, .i32⟩
  | .hbm, ⟨35, _⟩ => ⟨S3400000, .i32⟩
  | .hbm, ⟨36, _⟩ => ⟨S3400000, .i32⟩
  | .hbm, ⟨37, _⟩ => ⟨S3400000x1, .i32⟩
  | .hbm, ⟨38, _⟩ => ⟨S3400000, .f32⟩
  | .hbm, ⟨39, _⟩ => ⟨S_, .i32⟩
  | .hbm, ⟨40, _⟩ => ⟨S3400000, .i32⟩
  | .hbm, ⟨41, _⟩ => ⟨S3400000, .i1⟩
  | .hbm, ⟨42, _⟩ => ⟨S_, .i32⟩
  | .hbm, ⟨43, _⟩ => ⟨S3400000, .i32⟩
  | .hbm, ⟨44, _⟩ => ⟨S3400000, .i32⟩
  | .hbm, ⟨45, _⟩ => ⟨S3400000, .i32⟩
  | .hbm, ⟨46, _⟩ => ⟨S3400000x1, .i32⟩
  | .hbm, ⟨47, _⟩ => ⟨S3400000, .f32⟩
  | .hbm, ⟨48, _⟩ => ⟨S3400000, .f32⟩
  | .hbm, ⟨49, _⟩ => ⟨S3400000x1, .f32⟩
  | .hbm, ⟨50, _⟩ => ⟨S200000x16, .f32⟩
  | .hbm, ⟨51, _⟩ => ⟨S_, .i32⟩
  | .hbm, ⟨52, _⟩ => ⟨S3400000, .i32⟩
  | .hbm, ⟨53, _⟩ => ⟨S3400000, .i1⟩
  | .hbm, ⟨54, _⟩ => ⟨S_, .i32⟩
  | .hbm, ⟨55, _⟩ => ⟨S3400000, .i32⟩
  | .hbm, ⟨56, _⟩ => ⟨S3400000, .i32⟩
  | .hbm, ⟨57, _⟩ => ⟨S3400000, .i32⟩
  | .hbm, ⟨58, _⟩ => ⟨S3400000x1, .i32⟩
  | .hbm, ⟨59, _⟩ => ⟨S3400000x16, .f32⟩
  | .hbm, ⟨60, _⟩ => ⟨S3400000x16, .f32⟩
  | .hbm, ⟨61, _⟩ => ⟨S3400000x16, .f32⟩
  | .hbm, ⟨62, _⟩ => ⟨S_, .f32⟩
  | .hbm, ⟨63, _⟩ => ⟨S200000x16, .f32⟩
  | .hbm, ⟨64, _⟩ => ⟨S3400000x1, .i32⟩
  | .hbm, ⟨65, _⟩ => ⟨S200000x16, .f32⟩
  | .hbm, ⟨66, _⟩ => ⟨S1x16, .f32⟩
  | .hbm, ⟨67, _⟩ => ⟨S200000x2, .f32⟩
  | .hbm, ⟨68, _⟩ => ⟨S_, .i32⟩
  | .hbm, ⟨69, _⟩ => ⟨S3400000, .i32⟩
  | .hbm, ⟨70, _⟩ => ⟨S3400000, .i1⟩
  | .hbm, ⟨71, _⟩ => ⟨S_, .i32⟩
  | .hbm, ⟨72, _⟩ => ⟨S3400000, .i32⟩
  | .hbm, ⟨73, _⟩ => ⟨S3400000, .i32⟩
  | .hbm, ⟨74, _⟩ => ⟨S3400000, .i32⟩
  | .hbm, ⟨75, _⟩ => ⟨S3400000x1, .i32⟩
  | .hbm, ⟨76, _⟩ => ⟨S3400000x2, .f32⟩
  | .hbm, ⟨77, _⟩ => ⟨S3400000x2, .f32⟩
  | .hbm, ⟨78, _⟩ => ⟨S3400000x2, .f32⟩
  | .hbm, ⟨79, _⟩ => ⟨S_, .f32⟩
  | .hbm, ⟨80, _⟩ => ⟨S200000x2, .f32⟩
  | .hbm, ⟨81, _⟩ => ⟨S3400000x1, .i32⟩
  | .hbm, ⟨82, _⟩ => ⟨S200000x2, .f32⟩
  | .hbm, ⟨83, _⟩ => ⟨S1x2, .f32⟩
  | .hbm, ⟨84, _⟩ => ⟨S200000x2, .f32⟩
  | .local _ .vmem, ⟨0, _⟩ => ⟨S25000x16, .f32⟩
  | .local _ .vmem, ⟨1, _⟩ => ⟨S25000x16, .f32⟩
  | .local _ .vmem, ⟨2, _⟩ => ⟨S16x16, .f32⟩
  | .local _ .vmem, ⟨3, _⟩ => ⟨S25000x16, .f32⟩
  | .local _ .vmem, ⟨4, _⟩ => ⟨S25000x16, .f32⟩
  | .local _ .vmem, ⟨5, _⟩ => ⟨S25000x16, .f32⟩
  | .local _ .vmem, ⟨6, _⟩ => ⟨S25000x16, .f32⟩
  | .local _ .vmem, ⟨7, _⟩ => ⟨S1x16, .f32⟩
  | .local _ .vmem, ⟨8, _⟩ => ⟨S16x2, .f32⟩
  | .local _ .vmem, ⟨9, _⟩ => ⟨S25000x2, .f32⟩
  | .local _ .vmem, ⟨10, _⟩ => ⟨S25000x2, .f32⟩
  | .local _ .vmem, ⟨11, _⟩ => ⟨S25000x2, .f32⟩
  | .local _ .vmem, ⟨12, _⟩ => ⟨S25000x2, .f32⟩
  | .local _ .vmem, ⟨13, _⟩ => ⟨S1x2, .f32⟩
  | .local _ .vmem, ⟨14, _⟩ => ⟨S25000x2, .f32⟩
  | .local _ .vmem, ⟨15, _⟩ => ⟨S25000x2, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  inb_S25000x16_S25000x16_0_0 : ∀ a, (![0, 0] : Fin 2 → Nat) a + S25000x16.size a ≤ S25000x16.size a
  h_S25000x16 : 0 < S25000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  shapeCasts_S16_S1x16 : S16.ShapeCasts S1x16
  shapeCasts_S25000x16_S25000x16 : S25000x16.ShapeCasts S25000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S25000x16 : S1x16.Broadcasts S25000x16
  inb_S16x2_S16x2_0_0 : ∀ a, (![0, 0] : Fin 2 → Nat) a + S16x2.size a ≤ S16x2.size a
  h_S16x2 : 0 < S16x2.numel
  inb_S25000x2_S25000x2_0_0 : ∀ a, (![0, 0] : Fin 2 → Nat) a + S25000x2.size a ≤ S25000x2.size a
  h_S25000x2 : 0 < S25000x2.numel
  bcast_S3400000x1_S3400000x2_0_1 : S3400000x1.BroadcastsInDim S3400000x2 (![0, 1] : Fin 2 → Fin S3400000x2.rank)
  bcast_S_S200000x2 : S_.BroadcastsInDim S200000x2 (![] : Fin 0 → Fin S200000x2.rank)
  shapeCasts_S2_S1x2 : S2.ShapeCasts S1x2
  shapeCasts_S25000x2_S25000x2 : S25000x2.ShapeCasts S25000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S25000x2 : S1x2.Broadcasts S25000x2
  reduces_S25000x2_S25000 : S25000x2.Reduces [1] S25000
  shapeCasts_S25000_S25000x1 : S25000.ShapeCasts S25000x1
  broadcasts_S25000x1_S25000x2 : S25000x1.Broadcasts S25000x2
  scatter_S200000_S3400000x1_S3400000_n_0_0_1_wf : ScatterDims.WF S200000 S3400000x1 S3400000 [] [0] [0] 1
  gather_S200000_S3400000x1_S3400000_n_0_n_n_0_1_1_wf : GatherDims.WF S200000 S3400000x1 S3400000 [] [0] [] [0] [] 1 ![1]
  dot_S25000x16_S16x16_S25000x16_1_0_0_1_n_n_wf : DotDims.WF S25000x16 S16x16 S25000x16 [1] [0] [0] [1] [] []
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  dot_S25000x16_S16x2_S25000x2_1_0_0_1_n_n_wf : DotDims.WF S25000x16 S16x2 S25000x2 [1] [0] [0] [1] [] []
  gather_S200000x2_S3400000x1_S3400000x2_1_0_n_n_0_1_12_wf : GatherDims.WF S200000x2 S3400000x1 S3400000x2 [1] [0] [] [0] [] 1 ![1, 2]
  scatter_S200000x2_S3400000x1_S3400000x2_1_0_0_1_wf : ScatterDims.WF S200000x2 S3400000x1 S3400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x16.size a ≤ S200000x16.size a
  hwx0_0 : ∀ i : grid0.Coords, EltTy.bits .f32 = 32 ∨ (Rect.block (s := S200000x16) S25000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x16.size a ≤ S200000x16.size a
  hwx0_2 : ∀ i : grid0.Coords, EltTy.bits .f32 = 32 ∨ (Rect.block (s := S200000x16) S25000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S200000x16.size a
  hwx1_0 : ∀ i : grid1.Coords, EltTy.bits .f32 = 32 ∨ (Rect.block (s := S200000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x2.size a ≤ S200000x2.size a
  hwx1_3 : ∀ i : grid1.Coords, EltTy.bits .f32 = 32 ∨ (Rect.block (s := S200000x2) S25000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x2.size a ≤ S200000x2.size a
  hwx2_0 : ∀ i : grid2.Coords, EltTy.bits .f32 = 32 ∨ (Rect.block (s := S200000x2) S25000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x2.size a ≤ S200000x2.size a
  hwx2_2 : ∀ i : grid2.Coords, EltTy.bits .f32 = 32 ∨ (Rect.block (s := S200000x2) S25000x2.size (cc2_transform_2 i) (hinb2_2 i)).WholeWords (EltTy.packing .f32)

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def dot_S25000x16_S16x16_S25000x16_1_0_0_1_n_n : DotDims S25000x16 S16x16 S25000x16 where
  lhsContracting := [1]
  rhsContracting := [0]
  lhsNonContracting := [0]
  rhsNonContracting := [1]
  lhsBatch := []
  rhsBatch := []
  wf := dot_S25000x16_S16x16_S25000x16_1_0_0_1_n_n_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def dot_S25000x16_S16x2_S25000x2_1_0_0_1_n_n : DotDims S25000x16 S16x2 S25000x2 where
  lhsContracting := [1]
  rhsContracting := [0]
  lhsNonContracting := [0]
  rhsNonContracting := [1]
  lhsBatch := []
  rhsBatch := []
  wf := dot_S25000x16_S16x2_S25000x2_1_0_0_1_n_n_wf
def gather_S200000x2_S3400000x1_S3400000x2_1_0_n_n_0_1_12 : GatherDims S200000x2 S3400000x1 S3400000x2 where
  offsetDims := [1]
  collapsedSliceDims := [0]
  operandBatchingDims := []
  startIndicesBatchingDims := []
  startIndexMap := [0]
  indexVectorDim := 1
  sliceSizes := ![1, 2]
  wf := gather_S200000x2_S3400000x1_S3400000x2_1_0_n_n_0_1_12_wf
def scatter_S200000x2_S3400000x1_S3400000x2_1_0_0_1 : ScatterDims S200000x2 S3400000x1 S3400000x2 where
  updateWindowDims := [1]
  insertedWindowDims := [0]
  scatterDimsToOperandDims := [0]
  indexVectorDim := 1
  wf := scatter_S200000x2_S3400000x1_S3400000x2_1_0_0_1_wf

abbrev win0_0 : Pipeline.Window sig grid0 :=
  Pipeline.Window.ofSpec (Memref.whole main_arg0) S25000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S25000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S25000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S25000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S25000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S200000x16 : Shape := ⟨2, ![200000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S200000 : Shape := ⟨1, ![200000]⟩
abbrev S1x3200000 : Shape := ⟨2, ![1, 3200000]⟩
abbrev S3200000 : Shape := ⟨1, ![3200000]⟩
abbrev S3400000 : Shape := ⟨1, ![3400000]⟩
abbrev S_ : Shape := ⟨0, ![]⟩
abbrev S3400000x1 : Shape := ⟨2, ![3400000, 1]⟩
abbrev S3400000x16 : Shape := ⟨2, ![3400000, 16]⟩
abbrev S1x16 : Shape := ⟨2, ![1, 16]⟩
abbrev S200000x2 : Shape := ⟨2, ![200000, 2]⟩
abbrev S3400000x2 : Shape := ⟨2, ![3400000, 2]⟩
abbrev S1x2 : Shape := ⟨2, ![1, 2]⟩
abbrev S200000x1 : Shape := ⟨2, ![200000, 1]⟩

abbrev nBuf : Space → Nat
  | .hbm => 126
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x3200000, .i32⟩
  | .hbm, ⟨6, _⟩ => ⟨S200000, .i32⟩
  | .hbm, ⟨7, _⟩ => ⟨S1x3200000, .i32⟩
  | .hbm, ⟨8, _⟩ => ⟨S3200000, .i32⟩
  | .hbm, ⟨9, _⟩ => ⟨S3400000, .i32⟩
  | .hbm, ⟨10, _⟩ => ⟨S1x3200000, .i32⟩
  | .hbm, ⟨11, _⟩ => ⟨S3200000, .i32⟩
  | .hbm, ⟨12, _⟩ => ⟨S3400000, .i32⟩
  | .hbm, ⟨13, _⟩ => ⟨S_, .f32⟩
  | .hbm, ⟨14, _⟩ => ⟨S3400000, .f32⟩
  | .hbm, ⟨15, _⟩ => ⟨S_, .f32⟩
  | .hbm, ⟨16, _⟩ => ⟨S200000, .f32⟩
  | .hbm, ⟨17, _⟩ => ⟨S3400000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000x16, .f32⟩
  | .hbm, ⟨31, _⟩ => ⟨S_, .i32⟩
  | .hbm, ⟨32, _⟩ => ⟨S3400000, .i32⟩
  | .hbm, ⟨33, _⟩ => ⟨S3400000, .i1⟩
  | .hbm, ⟨34, _⟩ => ⟨S_, .i32⟩
  | .hbm, ⟨35, _⟩ => ⟨S3400000, .i32⟩
  | .hbm, ⟨36, _⟩ => ⟨S3400000, .i32⟩
  | .hbm, ⟨37, _⟩ => ⟨S3400000, .i32⟩
  | .hbm, ⟨38, _⟩ => ⟨S3400000x1, .i32⟩
  | .hbm, ⟨39, _⟩ => ⟨S3400000, .f32⟩
  | .hbm, ⟨40, _⟩ => ⟨S_, .i32⟩
  | .hbm, ⟨41, _⟩ => ⟨S3400000, .i32⟩
  | .hbm, ⟨42, _⟩ => ⟨S3400000, .i1⟩
  | .hbm, ⟨43, _⟩ => ⟨S_, .i32⟩
  | .hbm, ⟨44, _⟩ => ⟨S3400000, .i32⟩
  | .hbm, ⟨45, _⟩ => ⟨S3400000, .i32⟩
  | .hbm, ⟨46, _⟩ => ⟨S3400000, .i32⟩
  | .hbm, ⟨47, _⟩ => ⟨S3400000x1, .i32⟩
  | .hbm, ⟨48, _⟩ => ⟨S3400000, .f32⟩
  | .hbm, ⟨49, _⟩ => ⟨S3400000, .f32⟩
  | .hbm, ⟨50, _⟩ => ⟨S3400000x1, .f32⟩
  | .hbm, ⟨51, _⟩ => ⟨S_, .i32⟩
  | .hbm, ⟨52, _⟩ => ⟨S3400000, .i32⟩
  | .hbm, ⟨53, _⟩ => ⟨S3400000, .i1⟩
  | .hbm, ⟨54, _⟩ => ⟨S_, .i32⟩
  | .hbm, ⟨55, _⟩ => ⟨S3400000, .i32⟩
  | .hbm, ⟨56, _⟩ => ⟨S3400000, .i32⟩
  | .hbm, ⟨57, _⟩ => ⟨S3400000, .i32⟩
  | .hbm, ⟨58, _⟩ => ⟨S3400000x1, .i32⟩
  | .hbm, ⟨59, _⟩ => ⟨S3400000x16, .f32⟩
  | .hbm, ⟨60, _⟩ => ⟨S3400000x16, .f32⟩
  | .hbm, ⟨61, _⟩ => ⟨S3400000x16, .f32⟩
  | .hbm, ⟨62, _⟩ => ⟨S_, .f32⟩
  | .hbm, ⟨63, _⟩ => ⟨S200000x16, .f32⟩
  | .hbm, ⟨64, _⟩ => ⟨S3400000x1, .i32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S_, .f32⟩
  | .hbm, ⟨70, _⟩ => ⟨S200000x16, .f32⟩
  | .hbm, ⟨71, _⟩ => ⟨S200000x16, .f32⟩
  | .hbm, ⟨72, _⟩ => ⟨S200000x2, .f32⟩
  | .hbm, ⟨73, _⟩ => ⟨S_, .i32⟩
  | .hbm, ⟨74, _⟩ => ⟨S3400000, .i32⟩
  | .hbm, ⟨75, _⟩ => ⟨S3400000, .i1⟩
  | .hbm, ⟨76, _⟩ => ⟨S_, .i32⟩
  | .hbm, ⟨77, _⟩ => ⟨S3400000, .i32⟩
  | .hbm, ⟨78, _⟩ => ⟨S3400000, .i32⟩
  | .hbm, ⟨79, _⟩ => ⟨S3400000, .i32⟩
  | .hbm, ⟨80, _⟩ => ⟨S3400000x1, .i32⟩
  | .hbm, ⟨81, _⟩ => ⟨S3400000, .f32⟩
  | .hbm, ⟨82, _⟩ => ⟨S_, .i32⟩
  | .hbm, ⟨83, _⟩ => ⟨S3400000, .i32⟩
  | .hbm, ⟨84, _⟩ => ⟨S3400000, .i1⟩
  | .hbm, ⟨85, _⟩ => ⟨S_, .i32⟩
  | .hbm, ⟨86, _⟩ => ⟨S3400000, .i32⟩
  | .hbm, ⟨87, _⟩ => ⟨S3400000, .i32⟩
  | .hbm, ⟨88, _⟩ => ⟨S3400000, .i32⟩
  | .hbm, ⟨89, _⟩ => ⟨S3400000x1, .i32⟩
  | .hbm, ⟨90, _⟩ => ⟨S3400000, .f32⟩
  | .hbm, ⟨91, _⟩ => ⟨S3400000, .f32⟩
  | .hbm, ⟨92, _⟩ => ⟨S3400000x1, .f32⟩
  | .hbm, ⟨93, _⟩ => ⟨S_, .i32⟩
  | .hbm, ⟨94, _⟩ => ⟨S3400000, .i32⟩
  | .hbm, ⟨95, _⟩ => ⟨S3400000, .i1⟩
  | .hbm, ⟨96, _⟩ => ⟨S_, .i32⟩
  | .hbm, ⟨97, _⟩ => ⟨S3400000, .i32⟩
  | .hbm, ⟨98, _⟩ => ⟨S3400000, .i32⟩
  | .hbm, ⟨99, _⟩ => ⟨S3400000, .i32⟩
  | .hbm, ⟨100, _⟩ => ⟨S3400000x1, .i32⟩
  | .hbm, ⟨101, _⟩ => ⟨S3400000x2, .f32⟩
  | .hbm, ⟨102, _⟩ => ⟨S3400000x2, .f32⟩
  | .hbm, ⟨103, _⟩ => ⟨S3400000x2, .f32⟩
  | .hbm, ⟨104, _⟩ => ⟨S_, .f32⟩
  | .hbm, ⟨105, _⟩ => ⟨S200000x2, .f32⟩
  | .hbm, ⟨106, _⟩ => ⟨S3400000x1, .i32⟩
  | .hbm, ⟨107, _⟩ => ⟨S200000x2, .f32⟩
  | .hbm, ⟨108, _⟩ => ⟨S1x2, .f32⟩
  | .hbm, ⟨109, _⟩ => ⟨S200000x2, .f32⟩
  | .hbm, ⟨110, _⟩ => ⟨S200000x2, .f32⟩
  | .hbm, ⟨111, _⟩ => ⟨S_, .f32⟩
  | .hbm, ⟨112, _⟩ => ⟨S200000, .f32⟩
  | .hbm, ⟨113, _⟩ => ⟨S_, .f32⟩
  | .hbm, ⟨114, _⟩ => ⟨S200000, .f32⟩
  | .hbm, ⟨115, _⟩ => ⟨S200000, .f32⟩
  | .hbm, ⟨116, _⟩ => ⟨S200000x1, .f32⟩
  | .hbm, ⟨117, _⟩ => ⟨S200000x2, .f32⟩
  | .hbm, ⟨118, _⟩ => ⟨S200000x2, .f32⟩
  | .hbm, ⟨119, _⟩ => ⟨S200000x2, .f32⟩
  | .hbm, ⟨120, _⟩ => ⟨S_, .f32⟩
  | .hbm, ⟨121, _⟩ => ⟨S200000, .f32⟩
  | .hbm, ⟨122, _⟩ => ⟨S200000x1, .f32⟩
  | .hbm, ⟨123, _⟩ => ⟨S200000x1, .f32⟩
  | .hbm, ⟨124, _⟩ => ⟨S200000x2, .f32⟩
  | .hbm, ⟨125, _⟩ => ⟨S200000x2, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v82 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S3400000 : S_.BroadcastsInDim S3400000 (![] : Fin 0 → Fin S3400000.rank)
  bcast_S_S200000 : S_.BroadcastsInDim S200000 (![] : Fin 0 → Fin S200000.rank)
  bcast_S3400000_S3400000x1_0 : S3400000.BroadcastsInDim S3400000x1 (![0] : Fin 1 → Fin S3400000x1.rank)
  bcast_S3400000x1_S3400000x16_0_1 : S3400000x1.BroadcastsInDim S3400000x16 (![0, 1] : Fin 2 → Fin S3400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S3400000x1_S3400000x2_0_1 : S3400000x1.BroadcastsInDim S3400000x2 (![0, 1] : Fin 2 → Fin S3400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  scatter_S200000_S3400000x1_S3400000_n_0_0_1_wf : ScatterDims.WF S200000 S3400000x1 S3400000 [] [0] [0] 1
  dot_S200000x16_S16x16_S200000x16_1_0_0_1_n_n_wf : DotDims.WF S200000x16 S16x16 S200000x16 [1] [0] [0] [1] [] []
  gather_S200000_S3400000x1_S3400000_n_0_n_n_0_1_1_wf : GatherDims.WF S200000 S3400000x1 S3400000 [] [0] [] [0] [] 1 ![1]
  gather_S200000x16_S3400000x1_S3400000x16_1_0_n_n_0_1_116_wf : GatherDims.WF S200000x16 S3400000x1 S3400000x16 [1] [0] [] [0] [] 1 ![1, 16]
  scatter_S200000x16_S3400000x1_S3400000x16_1_0_0_1_wf : ScatterDims.WF S200000x16 S3400000x1 S3400000x16 [1] [0] [0] 1
  dot_S200000x16_S16x2_S200000x2_1_0_0_1_n_n_wf : DotDims.WF S200000x16 S16x2 S200000x2 [1] [0] [0] [1] [] []
  gather_S200000x2_S3400000x1_S3400000x2_1_0_n_n_0_1_12_wf : GatherDims.WF S200000x2 S3400000x1 S3400000x2 [1] [0] [] [0] [] 1 ![1, 2]
  scatter_S200000x2_S3400000x1_S3400000x2_1_0_0_1_wf : ScatterDims.WF S200000x2 S3400000x1 S3400000x2 [1] [0] [0] 1

variable [Facts₀]

def scatter_S200000_S3400000x1_S3400000_n_0_0_1 : ScatterDims S200000 S3400000x1 S3400000 where
  updateWindowDims := []
  insertedWindowDims := [0]
  scatterDimsToOperandDims := [0]
  indexVectorDim := 1
  wf := scatter_S200000_S3400000x1_S3400000_n_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def gather_S200000_S3400000x1_S3400000_n_0_n_n_0_1_1 : GatherDims S200000 S3400000x1 S3400000 where
  offsetDims := []
  collapsedSliceDims := [0]
  operandBatchingDims := []
  startIndicesBatchingDims := []
  startIndexMap := [0]
  indexVectorDim := 1
  sliceSizes := ![1]
  wf := gather_S200000_S3400000x1_S3400000_n_0_n_n_0_1_1_wf
def gather_S200000x16_S3400000x1_S3400000x16_1_0_n_n_0_1_116 : GatherDims S200000x16 S3400000x1 S3400000x16 where
  offsetDims := [1]
  collapsedSliceDims := [0]
  operandBatchingDims := []
  startIndicesBatchingDims := []
  startIndexMap := [0]
  indexVectorDim := 1
  sliceSizes := ![1, 16]
  wf := gather_S200000x16_S3400000x1_S3400000x16_1_0_n_n_0_1_116_wf
def scatter_S200000x16_S3400000x1_S3400000x16_1_0_0_1 : ScatterDims S200000x16 S3400000x1 S3400000x16 where
  updateWindowDims := [1]
  insertedWindowDims := [0]
  scatterDimsToOperandDims := [0]
  indexVectorDim := 1
  wf := scatter_S200000x16_S3400000x1_S3400000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S3400000x1_S3400000x2_1_0_n_n_0_1_12 : GatherDims S200000x2 S3400000x1 S3400000x2 where
  offsetDims := [1]
  collapsedSliceDims := [0]
  operandBatchingDims := []
  startIndicesBatchingDims := []
  startIndexMap := [0]
  indexVectorDim := 1
  sliceSizes := ![1, 2]
  wf := gather_S200000x2_S3400000x1_S3400000x2_1_0_n_n_0_1_12_wf
def scatter_S200000x2_S3400000x1_S3400000x2_1_0_0_1 : ScatterDims S200000x2 S3400000x1 S3400000x2 where
  updateWindowDims := [1]
  insertedWindowDims := [0]
  scatterDimsToOperandDims := [0]
  indexVectorDim := 1
  wf := scatter_S200000x2_S3400000x1_S3400000x2_1_0_0_1_wf

class Facts : Prop extends Facts₀ where

variable [Facts]
-- ==== Proof.Spec.lean ====
/- What the three dense stages compute, row by row, over the extended reals.
   * `rowsTimes x w`: entry (r, j) is Σ_q x[r, q] · w[q, j] — a node table times a 16 × 16 weight.
   * `rectifiedRowsTimes a b w`: entry (r, j) is Σ_q max(a[r, q] + b[0, q], 0) · w[q, j] — bias, rectifier, then a
     16 × 2 weight.
   * `logSoftmaxRows a b`: with z_j = a[r, j] + b[0, j] and m the larger of z_0, z_1 (a maximum seeded at −∞),
     entry (r, j) is (z_j − m) − log(exp(z_0 − m) + exp(z_1 − m)).
   Each row of a result depends only on the same row of the table, which is why a row-tiled kernel and a whole-array
   host operation agree. Float literals stay as their words: the same word stands on both sides. -/
import Idealize.ShloMosaic.PureOps.Ideal
import Idealize.ShloMosaic.Lib.ValueIdx

noncomputable section

namespace Cert.Spec

open Idealize.ShloMosaic Idealize.ShloMosaic.ValueIdx

/-- A 200000 × 16 table times a 16 × 16 weight, entry by entry. -/
def rowsTimes (x : (⟨2, ![200000, 16]⟩ : Shape).Idx → EReal) (w : (⟨2, ![16, 16]⟩ : Shape).Idx → EReal) :
    (⟨2, ![200000, 16]⟩ : Shape).Idx → EReal :=
  fun i => ∑ q : Fin 16, x (ix2 (i 0) q) * w (ix2 q (i 1))

/-- Bias row added, negative parts cut to the zero word's value, then a 16 × 2 weight, entry by entry. -/
def rectifiedRowsTimes (a : (⟨2, ![200000, 16]⟩ : Shape).Idx → EReal) (b : (⟨2, ![1, 16]⟩ : Shape).Idx → EReal)
    (w : (⟨2, ![16, 2]⟩ : Shape).Idx → EReal) : (⟨2, ![200000, 2]⟩ : Shape).Idx → EReal :=
  fun i => ∑ q : Fin 16,
    max (a (ix2 (i 0) q) + b (ix2 (0 : Fin 1) q)) (Ideal.ofBits .f32 0x00000000#32) * w (ix2 q (i 1))

/-- A row's two biased entries. -/
def biased (a : (⟨2, ![200000, 2]⟩ : Shape).Idx → EReal) (b : (⟨2, ![1, 2]⟩ : Shape).Idx → EReal)
    (r : Fin 200000) : Fin 2 → EReal :=
  fun j => a (ix2 r j) + b (ix2 (0 : Fin 1) j)

/-- A row's maximum, folded from the −∞ word. -/
def rowMax (z : Fin 2 → EReal) : EReal :=
  (Finset.univ : Finset (Fin 2)).fold max (Ideal.ofBits .f32 0xFF800000#32) z

/-- Row-wise log-softmax of the biased table, entry by entry. -/
def logSoftmaxRows (a : (⟨2, ![200000, 2]⟩ : Shape).Idx → EReal) (b : (⟨2, ![1, 2]⟩ : Shape).Idx → EReal) :
    (⟨2, ![200000, 2]⟩ : Shape).Idx → EReal :=
  fun i =>
    (biased a b (i 0) (i 1) - rowMax (biased a b (i 0)))
      - Ideal.log (∑ j : Fin 2, Ideal.exp (biased a b (i 0) j - rowMax (biased a b (i 0))))

end Cert.Spec

end
-- ==== Proof.RefProducts.lean ====
/- The reference's two matrix products are the row-wise functions of the specification: its `dot_general` of the node
   table with the first weight, and its bias broadcast, rectifier and `dot_general` with the second weight. A bias
   enters the specification as a 1 × 16 row holding the vector's entries. -/
import proofs.«104902_j22789096472662_1_alg».proof.Proof.RefRead
import proofs.«104902_j22789096472662_1_alg».proof.Proof.Spec
import Idealize.ShloMosaic.Lib.ValueIdx
import Idealize.ShloMosaic.PureOps.Ideal.Laws

set_option maxRecDepth 16384

noncomputable section

namespace Cert.Bridge

open Cert.ReferenceIdeal Cert.ReferenceIdeal.ReadP
open Idealize.ShloMosaic Idealize.ShloMosaic.ValueIdx

/-- The reference's first product is the table times the weight, entry by entry. -/
theorem ref_rowsTimes (x0 : (⟨S200000x16, .f32⟩ : BufTy).Contents (Elt Ideal)) (x1 : (⟨S16x16, .f32⟩ : BufTy).Contents (Elt Ideal)) :
    val_main_v17 (F := Ideal) x0 x1 = Cert.Spec.rowsTimes x0 x1 := by
  funext i
  rw [val_main_v17_apply]
  unfold Cert.Spec.rowsTimes
  refine Finset.sum_congr rfl fun k _ => ?_
  -- the left operand is read at (row, k), the right one at (k, column)
  have el : lidx_main_v17 i k = @ix2 200000 16 (i 0) k :=
    funext fun a => Fin.ext (by match a with | ⟨0, _⟩ => rfl | ⟨1, _⟩ => rfl)
  have er : ridx_main_v17 i k = @ix2 16 16 k (i 1) :=
    funext fun a => Fin.ext (by match a with | ⟨0, _⟩ => rfl | ⟨1, _⟩ => rfl)
  rw [el, er]

/-- The reference's second product is the rectified, biased first aggregate times the weight, entry by entry. -/
theorem ref_rectifiedRowsTimes (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x5 : (⟨S2x3200000, .i32⟩ : BufTy).Contents (Elt Ideal))
    (b : (⟨2, ![1, 16]⟩ : Shape).Idx → EReal) (hb : ∀ q : Fin 16, b (ix2 (0 : Fin 1) q) = x2 (ix1 q)) :
    val_main_v50 (F := Ideal) x0 x1 x2 x3 x5
      = Cert.Spec.rectifiedRowsTimes (val_main_v45 (F := Ideal) x0 x1 x5) b x3 := by
  funext i
  rw [val_main_v50_apply]
  unfold Cert.Spec.rectifiedRowsTimes
  refine Finset.sum_congr rfl fun k _ => ?_
  -- the left operand is read at (row, k), the right one at (k, column)
  have el : lidx_main_v50 i k = @ix2 200000 16 (i 0) k :=
    funext fun a => Fin.ext (by match a with | ⟨0, _⟩ => rfl | ⟨1, _⟩ => rfl)
  have er : ridx_main_v50 i k = @ix2 16 2 k (i 1) :=
    funext fun a => Fin.ext (by match a with | ⟨0, _⟩ => rfl | ⟨1, _⟩ => rfl)
  rw [el, er]
  refine congrArg (fun z => z * x3 (@ix2 16 2 k (i 1))) ?_
  -- the left operand's entry: the aggregate plus the bias row's entry k, cut below at the zero word
  rw [val_main_v49_apply, val_main_v48_apply, val_main_v47_apply, val_main_v46_apply, val_main_call1_v0_apply,
    val_main_call1_cst_apply]
  -- the row broadcast reads the bias vector at k
  have eb : idx_main_v46 (idx_main_v47 (@ix2 200000 16 (i 0) k)) = ix1 k :=
    funext fun a => Fin.ext (by match a with | ⟨0, _⟩ => rfl)
  rw [eb, ← hb k]
  generalize val_main_v45 (F := Ideal) x0 x1 x5 = A
  simp only [Ideal.maximumf_def, Ideal.addf_def, Ideal.ofBits_def]

end Cert.Bridge

end
-- ==== Proof.RefSoftmax.lean ====
/- The reference's log_softmax is the row-wise function of the specification: a row maximum seeded at −∞ and taken once
   more against −∞, the shifted entries, and the logarithm of the sum of their exponentials from zero, of the biased
   second aggregate. The bias enters the specification as a 1 × 2 row holding the vector's entries. -/
import proofs.«104902_j22789096472662_1_alg».proof.Proof.RefRead
import proofs.«104902_j22789096472662_1_alg».proof.Proof.Spec
import Idealize.ShloMosaic.Lib.ValueIdx
import Idealize.ShloMosaic.PureOps.Ideal.Laws
import Idealize.ShloMosaic.PureOps.Reduce

set_option maxRecDepth 16384

noncomputable section

namespace Cert.Bridge

open Cert.ReferenceIdeal Cert.ReferenceIdeal.ReadP
open Idealize.ShloMosaic Idealize.ShloMosaic.ValueIdx

/-- The index over row r whose column coordinate is k. -/
theorem ref_lsm_lift_eq (h : S200000x2.Reduces [1] S200000) (r : Fin 200000) (k : Fin 2) :
    h.lift (ix1 r) k = ix2 r k := by
  funext a
  match a with
  | ⟨0, _⟩ => exact Fin.ext rfl
  | ⟨1, _⟩ => exact Fin.ext rfl

/-- The host's reduce with a maximum body over the two columns, from the −∞ word, at row r: the row's maximum as the
    specification folds it. -/
theorem ref_lsm_hostRowMax_apply (z : S200000x2.Idx → EReal) (h' : S200000x2.ReducesTo [1] S200000) (hu : 0 < S_.numel)
    (r : Fin 200000) :
    Host.reduce (FloatOps.maximumf (F := Ideal) (φ := .f32)) z (constant (F := Ideal) S_ .f32 0xFF800000#32) h' hu (ix1 r)
      = Cert.Spec.rowMax (fun j => z (ix2 r j)) := by
  have h : S200000x2.Reduces [1] S200000 := by decide
  refine (Host.reduce_eq_fold_single (FloatOps.maximumf (F := Ideal) (φ := .f32)) z _ h' h hu (ix1 r)).trans ?_
  unfold Cert.Spec.rowMax
  refine congrArg (fun f => (Finset.univ : Finset (Fin 2)).fold max (Ideal.ofBits .f32 0xFF800000#32) f) ?_
  funext k
  exact congrArg z (ref_lsm_lift_eq h r k)

/-- The −∞ word is below a row maximum folded from it, so the maximum of the two is the row maximum. -/
theorem ref_lsm_max_negInf_rowMax (z : Fin 2 → EReal) :
    max (Ideal.ofBits .f32 0xFF800000#32) (Cert.Spec.rowMax z) = Cert.Spec.rowMax z := by
  unfold Cert.Spec.rowMax
  exact max_eq_right ((Finset.le_fold_max _).mpr (Or.inl le_rfl))

/-- The reference's biased table at (r, j): the second aggregate's entry plus the bias vector's entry j, which the
    specification's bias row holds. -/
theorem ref_lsm_biased_apply (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x3200000, .i32⟩ : BufTy).Contents (Elt Ideal))
    (b : (⟨2, ![1, 2]⟩ : Shape).Idx → EReal) (hb : ∀ j : Fin 2, b (ix2 (0 : Fin 1) j) = x4 (ix1 j))
    (r : Fin 200000) (j : Fin 2) :
    val_main_v81 (F := Ideal) x0 x1 x2 x3 x4 x5 (ix2 r j)
      = Cert.Spec.biased (val_main_v78 (F := Ideal) x0 x1 x2 x3 x5) b r j := by
  rw [val_main_v81_apply, val_main_v80_apply, val_main_v79_apply]
  have e : idx_main_v79 (idx_main_v80 (ix2 r j)) = ix1 j :=
    funext fun a => Fin.ext (by match a with | ⟨0, _⟩ => rfl)
  rw [e, ← hb j]
  rfl

/-- The reference's row maximum — the reduce from −∞, taken once more against −∞ — at row r is the specification's. -/
theorem ref_lsm_rowMax_apply (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x3200000, .i32⟩ : BufTy).Contents (Elt Ideal))
    (b : (⟨2, ![1, 2]⟩ : Shape).Idx → EReal) (hb : ∀ j : Fin 2, b (ix2 (0 : Fin 1) j) = x4 (ix1 j))
    (r : Fin 200000) :
    val_main_call2_v2 (F := Ideal) x0 x1 x2 x3 x4 x5 (ix1 r)
      = Cert.Spec.rowMax (Cert.Spec.biased (val_main_v78 (F := Ideal) x0 x1 x2 x3 x5) b r) := by
  rw [val_main_call2_v2_apply, val_main_call2_v1_apply, val_main_call2_cst_0_apply]
  unfold val_main_call2_v0 val_main_call2_cst
  rw [ref_lsm_hostRowMax_apply]
  rw [show (fun j => val_main_v81 (F := Ideal) x0 x1 x2 x3 x4 x5 (ix2 r j))
        = Cert.Spec.biased (val_main_v78 (F := Ideal) x0 x1 x2 x3 x5) b r
      from funext fun j => ref_lsm_biased_apply x0 x1 x2 x3 x4 x5 b hb r j]
  exact ref_lsm_max_negInf_rowMax _

/-- The reference's shifted entries at (r, j): the biased entry minus the row's maximum. -/
theorem ref_lsm_shifted_apply (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x3200000, .i32⟩ : BufTy).Contents (Elt Ideal))
    (b : (⟨2, ![1, 2]⟩ : Shape).Idx → EReal) (hb : ∀ j : Fin 2, b (ix2 (0 : Fin 1) j) = x4 (ix1 j))
    (r : Fin 200000) (j : Fin 2) :
    val_main_call2_v5 (F := Ideal) x0 x1 x2 x3 x4 x5 (ix2 r j)
      = Cert.Spec.biased (val_main_v78 (F := Ideal) x0 x1 x2 x3 x5) b r j
          - Cert.Spec.rowMax (Cert.Spec.biased (val_main_v78 (F := Ideal) x0 x1 x2 x3 x5) b r) := by
  rw [val_main_call2_v5_apply, val_main_call2_v4_apply, val_main_call2_v3_apply]
  have e : idx_main_call2_v3 (idx_main_call2_v4 (ix2 r j)) = ix1 r :=
    funext fun a => Fin.ext (by match a with | ⟨0, _⟩ => rfl)
  rw [e, ref_lsm_rowMax_apply x0 x1 x2 x3 x4 x5 b hb r, ref_lsm_biased_apply x0 x1 x2 x3 x4 x5 b hb r j]
  rfl

/-- The reference's sum of exponentials at row r, from the zero word: the sum over the two columns of the exponentials of
    the shifted entries. -/
theorem ref_lsm_sumExp_apply (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x3200000, .i32⟩ : BufTy).Contents (Elt Ideal))
    (b : (⟨2, ![1, 2]⟩ : Shape).Idx → EReal) (hb : ∀ j : Fin 2, b (ix2 (0 : Fin 1) j) = x4 (ix1 j))
    (r : Fin 200000) :
    val_main_call2_v7 (F := Ideal) x0 x1 x2 x3 x4 x5 (ix1 r)
      = ∑ j : Fin 2, Ideal.exp (Cert.Spec.biased (val_main_v78 (F := Ideal) x0 x1 x2 x3 x5) b r j
          - Cert.Spec.rowMax (Cert.Spec.biased (val_main_v78 (F := Ideal) x0 x1 x2 x3 x5) b r)) := by
  rw [val_main_call2_v7_apply, val_main_call2_cst_1_apply, Ideal.ofBits_def, Ideal.ofBits_zero_f32, zero_add]
  refine Finset.sum_congr rfl fun k _ => ?_
  have e : idx_main_call2_v7 (ix1 r) k = ix2 r k :=
    funext fun a => Fin.ext (by match a with | ⟨0, _⟩ => rfl | ⟨1, _⟩ => rfl)
  rw [e, val_main_call2_v6_apply, ref_lsm_shifted_apply x0 x1 x2 x3 x4 x5 b hb r k, Ideal.hostUnary_exp_def]

/-- The reference's result is the row-wise log-softmax of the biased second aggregate, entry by entry. -/
theorem ref_logSoftmaxRows (x0 : (⟨S200000x16, .f32⟩ : BufTy).Contents (Elt Ideal)) (x1 : (⟨S16x16, .f32⟩ : BufTy).Contents (Elt Ideal))
    (x2 : (⟨S16, .f32⟩ : BufTy).Contents (Elt Ideal)) (x3 : (⟨S16x2, .f32⟩ : BufTy).Contents (Elt Ideal))
    (x4 : (⟨S2, .f32⟩ : BufTy).Contents (Elt Ideal)) (x5 : (⟨S2x3200000, .i32⟩ : BufTy).Contents (Elt Ideal))
    (b : (⟨2, ![1, 2]⟩ : Shape).Idx → EReal) (hb : ∀ j : Fin 2, b (ix2 (0 : Fin 1) j) = x4 (ix1 j)) :
    val_main_v82 (F := Ideal) x0 x1 x2 x3 x4 x5
      = Cert.Spec.logSoftmaxRows (val_main_v78 (F := Ideal) x0 x1 x2 x3 x5) b := by
  funext i
  obtain ⟨r, q, rfl⟩ : ∃ (r : Fin 200000) (q : Fin 2), i = ix2 r q := ⟨i 0, i 1, eq_ix2 i⟩
  rw [val_main_v82_apply, ref_lsm_shifted_apply x0 x1 x2 x3 x4 x5 b hb r q, val_main_call2_v10_apply,
    val_main_call2_v9_apply, val_main_call2_v8_apply]
  have e : idx_main_call2_v8 (idx_main_call2_v10 (ix2 r q)) = ix1 r :=
    funext fun a => Fin.ext (by match a with | ⟨0, _⟩ => rfl)
  rw [e, ref_lsm_sumExp_apply x0 x1 x2 x3 x4 x5 b hb r, Ideal.hostUnary_log_def, Ideal.subf_def]
  generalize val_main_v78 (F := Ideal) x0 x1 x2 x3 x5 = A
  rfl

end Cert.Bridge

end
-- ==== Proof.Linear1.lean ====
/- The first region: a row-tiled matrix product. Block t of the output holds rows 25000·t … 25000·t + 24999 of
   x · W1, each entry the sum over the 16 columns of x's row against W1's column; the eight blocks tile all 200000
   rows, so the array after the region is the whole product. -/
import proofs.«104902_j22789096472662_1_alg».proof.Proof.Gen.KernelIdeal.Frame
import proofs.«104902_j22789096472662_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The zero offsets of a whole-buffer access, as the constant function. -/
theorem lin1_zero_offsets : (![0, 0] : Fin 2 → Nat) = fun _ => 0 := funext fun a => by fin_cases a <;> rfl

/-- The product's left operand is read at the output's row … -/
theorem lin1_lhs_row (i : S25000x16.Idx) (q : dot_S25000x16_S16x16_S25000x16_1_0_0_1_n_n.contr.Idx) :
    (dot_S25000x16_S16x16_S25000x16_1_0_0_1_n_n.lhsIdx i q 0).val = (i 0).val := by
  unfold DotDims.lhsIdx
  rw [dif_neg (show ¬(0 : Fin S25000x16.rank) ∈ dot_S25000x16_S16x16_S25000x16_1_0_0_1_n_n.lhsBatch by decide), dif_pos (show (0 : Fin S25000x16.rank) ∈ dot_S25000x16_S16x16_S25000x16_1_0_0_1_n_n.lhsNonContracting by decide)]
  rfl
/-- … and at the summation index as its column; -/
theorem lin1_lhs_col (i : S25000x16.Idx) (q : dot_S25000x16_S16x16_S25000x16_1_0_0_1_n_n.contr.Idx) :
    (dot_S25000x16_S16x16_S25000x16_1_0_0_1_n_n.lhsIdx i q 1).val = (q ⟨0, by decide⟩).val :=
  dot_S25000x16_S16x16_S25000x16_1_0_0_1_n_n.lhsIdx_val_of_single rfl i q
/-- the right operand at the summation index as its row … -/
theorem lin1_rhs_row (i : S25000x16.Idx) (q : dot_S25000x16_S16x16_S25000x16_1_0_0_1_n_n.contr.Idx) :
    (dot_S25000x16_S16x16_S25000x16_1_0_0_1_n_n.rhsIdx i q 0).val = (q ⟨0, by decide⟩).val :=
  dot_S25000x16_S16x16_S25000x16_1_0_0_1_n_n.rhsIdx_val_of_single rfl i q
/-- … and at the output's column. -/
theorem lin1_rhs_col (i : S25000x16.Idx) (q : dot_S25000x16_S16x16_S25000x16_1_0_0_1_n_n.contr.Idx) :
    (dot_S25000x16_S16x16_S25000x16_1_0_0_1_n_n.rhsIdx i q 1).val = (i 1).val := by
  unfold DotDims.rhsIdx
  rw [dif_neg (show ¬(1 : Fin S16x16.rank) ∈ dot_S25000x16_S16x16_S25000x16_1_0_0_1_n_n.rhsBatch by decide), dif_pos (show (1 : Fin S16x16.rank) ∈ dot_S25000x16_S16x16_S25000x16_1_0_0_1_n_n.rhsNonContracting by decide)]
  rfl

/-- One entry of the body's product, at row `p` and column `q` of the block: a change of float format is the identity
    on the extended reals and the accumulator is the zero splat, so it is the sum over the sixteen columns `k` of the
    row block's entry (p, k) times the weight's entry (k, q). -/
theorem lin1_payload_apply (x0 : Vec Ideal S25000x16 .f32) (x1 : Vec Ideal S16x16 .f32) (p : Fin 25000) (q : Fin 16) :
    k0_pay1 (F := Ideal) x0 x1 (ValueIdx.ix2 p q) = ∑ k : Fin 16, x0 (ValueIdx.ix2 p k) * x1 (ValueIdx.ix2 k q) := by
  unfold k0_pay1
  simp only [matmul]
  rw [Ideal.matmul_constant_zero_apply, ← Equiv.sum_comp (ValueIdx.contrEquiv1 dot_S25000x16_S16x16_S25000x16_1_0_0_1_n_n 16 rfl rfl).symm]
  refine Finset.sum_congr rfl fun k _ => ?_
  have hk := ValueIdx.contrEquiv1_symm_val dot_S25000x16_S16x16_S25000x16_1_0_0_1_n_n 16 rfl rfl k
  have el : dot_S25000x16_S16x16_S25000x16_1_0_0_1_n_n.lhsIdx (ValueIdx.ix2 p q) ((ValueIdx.contrEquiv1 dot_S25000x16_S16x16_S25000x16_1_0_0_1_n_n 16 rfl rfl).symm k) = ValueIdx.ix2 p k := funext fun a => Fin.ext (by
    match a with
    | ⟨0, _⟩ => exact lin1_lhs_row _ _
    | ⟨1, _⟩ => exact (lin1_lhs_col _ _).trans hk)
  have er : dot_S25000x16_S16x16_S25000x16_1_0_0_1_n_n.rhsIdx (ValueIdx.ix2 p q) ((ValueIdx.contrEquiv1 dot_S25000x16_S16x16_S25000x16_1_0_0_1_n_n 16 rfl rfl).symm k) = ValueIdx.ix2 k q := funext fun a => Fin.ext (by
    match a with
    | ⟨0, _⟩ => exact (lin1_rhs_row _ _).trans hk
    | ⟨1, _⟩ => exact lin1_rhs_col _ _)
  rw [ValueIdx.truncf_apply, ValueIdx.truncf_apply, el, er]

/-- An entry of the body's product is the specification's entry at array index `i`, once the row block's row `p` is the
    table's row `i 0` and the weight block's column `q` is the weight's column `i 1`. -/
theorem lin1_point (x0 : Vec Ideal S25000x16 .f32) (x1 : Vec Ideal S16x16 .f32)
    (A0 : S200000x16.Idx → EReal) (A1 : S16x16.Idx → EReal) (p : Fin 25000) (q : Fin 16) (i : S200000x16.Idx)
    (h0 : ∀ k : Fin 16, x0 (ValueIdx.ix2 p k) = A0 (ValueIdx.ix2 (i 0) k))
    (h1 : ∀ k : Fin 16, x1 (ValueIdx.ix2 k q) = A1 (ValueIdx.ix2 k (i 1))) :
    k0_pay1 (F := Ideal) x0 x1 (ValueIdx.ix2 p q) = Cert.Spec.rowsTimes A0 A1 i := by
  rw [lin1_payload_apply]
  unfold Cert.Spec.rowsTimes
  exact Finset.sum_congr rfl fun k _ => by rw [h0 k, h1 k]

/-- The windows' block indices at grid point `t`: the input rows' block moves with the output's, whose row-block index
    is the point's number; every other block index is zero. -/
theorem lin1_index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product `x · W1`: at row `p`, column `q` of the block the body's sum
    runs over row `p` of the input block, which is row `25000·t + p` of `x` (a block's coordinate is block index × block
    size + the coordinate inside the block), and over column `q` of the weight, held whole. -/
theorem lin1_flushed (c : Dev nD) (t : Fin cfg0.N) :
    (dat0 (F := Ideal) V c).flushed 2 t
      = ((cfg0.win 2).blk t).view.read (Elt Ideal) (Cert.Spec.rowsTimes (V c main_arg0) (V c main_arg1)) := by
  show (cfg0.win 2).cut (grid0.coords t) ((dat0 V c).after 2 t) = _
  rw [after0_2]
  unfold out0_2
  rw [View.canon_unit_zero lin1_zero_offsets]
  simp only [View.ld_unit_zero (S := S25000x16) lin1_zero_offsets, View.ld_unit_zero (S := S16x16) lin1_zero_offsets]
  obtain ⟨e00, e01, e10, e11, e20, e21⟩ := lin1_index_facts t
  funext j
  obtain ⟨p, q, rfl⟩ : ∃ (p : Fin 25000) (q : Fin 16), j = ValueIdx.ix2 p q := ⟨j 0, j 1, ValueIdx.eq_ix2 j⟩
  show k0_pay1 (F := Ideal) (iblk0 V c 0 t) (iblk0 V c 1 t) (ValueIdx.ix2 p q)
    = Cert.Spec.rowsTimes (V c main_arg0) (V c main_arg1) (((cfg0.win 2).blk t).view.emb (ValueIdx.ix2 p q))
  refine lin1_point _ _ (V c main_arg0) (V c main_arg1) p q _ (fun k => ?_) (fun k => ?_)
  · show V c main_arg0 (((cfg0.win 0).blk t).view.emb (ValueIdx.ix2 p k)) = _
    refine congrArg (V c main_arg0) (funext fun a => Fin.ext ?_)
    match a with
    | ⟨0, _⟩ => show win0_0.index t (0 : Fin 2) * 25000 + 1 * p.val = win0_2.index t (0 : Fin 2) * 25000 + 1 * p.val; omega
    | ⟨1, _⟩ => show win0_0.index t (1 : Fin 2) * 16 + 1 * k.val = k.val; omega
  · show V c main_arg1 (((cfg0.win 1).blk t).view.emb (ValueIdx.ix2 k q)) = _
    refine congrArg (V c main_arg1) (funext fun a => Fin.ext ?_)
    match a with
    | ⟨0, _⟩ => show win0_1.index t (0 : Fin 2) * 16 + 1 * k.val = k.val; omega
    | ⟨1, _⟩ => show win0_1.index t (1 : Fin 2) * 16 + 1 * q.val = win0_2.index t (1 : Fin 2) * 16 + 1 * q.val; omega

/-- An index of the array is in point `t`'s block iff each coordinate is in the block's range on its axis. -/
theorem lin1_mem_block (t : Fin cfg0.N) (i : S200000x16.Idx) :
    i ∈ ((cfg0.win 2).blk t).view.set ↔ ∀ a : Fin 2, win0_2.index t a * S25000x16.size a ≤ (i a).val ∧ (i a).val < win0_2.index t a * S25000x16.size a + S25000x16.size a := by
  show i ∈ ((View.whole main_v33).slice (win0_2.rect t)).set ↔ _
  rw [View.set_slice_whole, Rect.mem_set_unit]
  exact Iff.rfl

/-- The eight blocks tile the rows: row `r` lies in the block of point `r / 25000`, and every point writes back. -/
theorem lin1_cover (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  have hN : cfg0.N = 8 := N_0
  obtain ⟨t, ht⟩ : ∃ t : Fin cfg0.N, t.val = (i 0).val / 25000 := ⟨⟨(i 0).val / 25000, by rw [hN]; omega⟩, rfl⟩
  obtain ⟨e00, e01, e10, e11, e20, e21⟩ := lin1_index_facts t
  refine ⟨t, flush0_2 t, ?_⟩
  rw [lin1_mem_block]
  intro a
  match a with
  | ⟨0, _⟩ => show win0_2.index t (0 : Fin 2) * 25000 ≤ (i 0).val ∧ (i 0).val < win0_2.index t (0 : Fin 2) * 25000 + 25000; omega
  | ⟨1, _⟩ => show win0_2.index t (1 : Fin 2) * 16 ≤ (i 1).val ∧ (i 1).val < win0_2.index t (1 : Fin 2) * 16 + 16; omega

/-- The array after the region is the whole product: every point writes back its block of it, and the blocks cover
    the array. -/
theorem linear1_array (c : Dev nD) :
    (dat0 (F := Ideal) V c).arrAt 2 cfg0.N = Cert.Spec.rowsTimes (V c main_arg0) (V c main_arg1) :=
  (dat0 (F := Ideal) V c).arrAt_eq_of_cover 2 (Cert.Spec.rowsTimes (V c main_arg0) (V c main_arg1))
    (fun t _ => lin1_flushed V c t) lin1_cover

end Cert.Bridge

end
-- ==== Proof.Layer2.lean ====
/- The second region: bias, rectifier and a row-tiled matrix product. Row r of the output is
   Σ_q max(a[r, q] + b1[q], 0) · W2[q, ·]; the eight blocks tile all rows, so the array after the region is that
   function of the whole aggregate. -/
import proofs.«104902_j22789096472662_1_alg».proof.Proof.Gen.KernelIdeal.Frame
import proofs.«104902_j22789096472662_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)

/-! ## The product's operand indices, coordinate by coordinate

The left operand is read at (row of the result, contraction index), the right one at (contraction index, column of
the result). -/

theorem layer2_dot_lhs_0 (i : S25000x2.Idx) (q : dot_S25000x16_S16x2_S25000x2_1_0_0_1_n_n.contr.Idx) :
    (dot_S25000x16_S16x2_S25000x2_1_0_0_1_n_n.lhsIdx i q 0).val = (i 0).val := by
  unfold DotDims.lhsIdx
  rw [dif_neg (show ¬(0 : Fin S25000x16.rank) ∈ dot_S25000x16_S16x2_S25000x2_1_0_0_1_n_n.lhsBatch by decide), dif_pos (show (0 : Fin S25000x16.rank) ∈ dot_S25000x16_S16x2_S25000x2_1_0_0_1_n_n.lhsNonContracting by decide)]
  rfl
theorem layer2_dot_lhs_1 (i : S25000x2.Idx) (q : dot_S25000x16_S16x2_S25000x2_1_0_0_1_n_n.contr.Idx) :
    (dot_S25000x16_S16x2_S25000x2_1_0_0_1_n_n.lhsIdx i q 1).val = (q ⟨0, by decide⟩).val :=
  dot_S25000x16_S16x2_S25000x2_1_0_0_1_n_n.lhsIdx_val_of_single rfl i q
theorem layer2_dot_rhs_0 (i : S25000x2.Idx) (q : dot_S25000x16_S16x2_S25000x2_1_0_0_1_n_n.contr.Idx) :
    (dot_S25000x16_S16x2_S25000x2_1_0_0_1_n_n.rhsIdx i q 0).val = (q ⟨0, by decide⟩).val :=
  dot_S25000x16_S16x2_S25000x2_1_0_0_1_n_n.rhsIdx_val_of_single rfl i q
theorem layer2_dot_rhs_1 (i : S25000x2.Idx) (q : dot_S25000x16_S16x2_S25000x2_1_0_0_1_n_n.contr.Idx) :
    (dot_S25000x16_S16x2_S25000x2_1_0_0_1_n_n.rhsIdx i q 1).val = (i 1).val := by
  unfold DotDims.rhsIdx
  rw [dif_neg (show ¬(1 : Fin S16x2.rank) ∈ dot_S25000x16_S16x2_S25000x2_1_0_0_1_n_n.rhsBatch by decide), dif_pos (show (1 : Fin S16x2.rank) ∈ dot_S25000x16_S16x2_S25000x2_1_0_0_1_n_n.rhsNonContracting by decide)]
  rfl

/-! ## The body's result at one entry -/

/-- The matrix product into the zero splat, entry (p, q): the sum over the sixteen contraction indices. -/
theorem layer2_matmul_apply (l : FVec Ideal S25000x16 .bf16) (r : FVec Ideal S16x2 .bf16) (p : Fin 25000) (q : Fin 2) :
    matmul dot_S25000x16_S16x2_S25000x2_1_0_0_1_n_n none l r (constant (F := Ideal) S25000x2 .f32 0x00000000#32) (ValueIdx.ix2 p q)
      = ∑ k : Fin 16, l (ValueIdx.ix2 p k) * r (ValueIdx.ix2 k q) := by
  refine (Ideal.matmul_constant_zero_apply dot_S25000x16_S16x2_S25000x2_1_0_0_1_n_n none l r (ValueIdx.ix2 p q)).trans ?_
  rw [← Equiv.sum_comp (ValueIdx.contrEquiv1 dot_S25000x16_S16x2_S25000x2_1_0_0_1_n_n 16 rfl rfl).symm]
  refine Finset.sum_congr rfl fun k _ => ?_
  have hk := ValueIdx.contrEquiv1_symm_val dot_S25000x16_S16x2_S25000x2_1_0_0_1_n_n 16 rfl rfl k
  have el : dot_S25000x16_S16x2_S25000x2_1_0_0_1_n_n.lhsIdx (ValueIdx.ix2 p q) ((ValueIdx.contrEquiv1 dot_S25000x16_S16x2_S25000x2_1_0_0_1_n_n 16 rfl rfl).symm k) = ValueIdx.ix2 p k := funext fun a => Fin.ext (by
    match a with
    | ⟨0, _⟩ => exact layer2_dot_lhs_0 _ _
    | ⟨1, _⟩ => exact (layer2_dot_lhs_1 _ _).trans hk)
  have er : dot_S25000x16_S16x2_S25000x2_1_0_0_1_n_n.rhsIdx (ValueIdx.ix2 p q) ((ValueIdx.contrEquiv1 dot_S25000x16_S16x2_S25000x2_1_0_0_1_n_n 16 rfl rfl).symm k) = ValueIdx.ix2 k q := funext fun a => Fin.ext (by
    match a with
    | ⟨0, _⟩ => exact (layer2_dot_rhs_0 _ _).trans hk
    | ⟨1, _⟩ => exact layer2_dot_rhs_1 _ _)
  rw [el, er]

/-- The one bias row broadcast down the block: entry (p, k) is the row's entry k. -/
theorem layer2_bias_row_apply (b : FVec Ideal S1x16 .f32) (p : Fin 25000) (k : Fin 16) :
    broadcastTo S25000x16 b broadcasts_S1x16_S25000x16 (ValueIdx.ix2 p k) = b (ValueIdx.ix2 (0 : Fin 1) k) :=
  broadcastTo_apply b broadcasts_S1x16_S25000x16 (ValueIdx.ix2 p k) (ValueIdx.ix2 (0 : Fin 1) k) (fun a => by
    match a with
    | ⟨0, _⟩ => rfl
    | ⟨1, _⟩ => rfl)

/-- The body's result at entry (p, q), from the three blocks it loaded. -/
theorem layer2_payload_apply (x0 : Vec Ideal S25000x16 .f32) (x1 : Vec Ideal S1x16 .f32) (x2 : Vec Ideal S16x2 .f32)
    (p : Fin 25000) (q : Fin 2) :
    k1_pay1 (F := Ideal) x0 x1 x2 (ValueIdx.ix2 p q)
      = ∑ k : Fin 16, max (x0 (ValueIdx.ix2 p k) + x1 (ValueIdx.ix2 (0 : Fin 1) k)) (Ideal.ofBits .f32 0x00000000#32)
          * x2 (ValueIdx.ix2 k q) := by
  unfold k1_pay1
  refine (layer2_matmul_apply _ _ p q).trans ?_
  refine Finset.sum_congr rfl fun k _ => ?_
  rw [ValueIdx.truncf_apply, ValueIdx.truncf_apply, ValueIdx.maximumf_apply, ValueIdx.addf_apply, ValueIdx.broadcast_apply,
    shapeCast_self, shapeCast_self, layer2_bias_row_apply]
  rfl

/-- The same entry against the whole arrays: when the three loaded blocks hold the table's row, the bias row and
    the weight's column that entry `i` of the result asks for, the body's entry (p, q) is the specification's
    entry `i`. -/
theorem layer2_point (a : S200000x16.Idx → EReal) (b : S1x16.Idx → EReal) (w : S16x2.Idx → EReal)
    (x0 : Vec Ideal S25000x16 .f32) (x1 : Vec Ideal S1x16 .f32) (x2 : Vec Ideal S16x2 .f32)
    (i : S200000x2.Idx) (p : Fin 25000) (q : Fin 2)
    (h0 : ∀ k : Fin 16, x0 (ValueIdx.ix2 p k) = a (ValueIdx.ix2 (i 0) k))
    (h1 : ∀ k : Fin 16, x1 (ValueIdx.ix2 (0 : Fin 1) k) = b (ValueIdx.ix2 (0 : Fin 1) k))
    (h2 : ∀ k : Fin 16, x2 (ValueIdx.ix2 k q) = w (ValueIdx.ix2 k (i 1))) :
    k1_pay1 (F := Ideal) x0 x1 x2 (ValueIdx.ix2 p q) = Cert.Spec.rectifiedRowsTimes a b w i := by
  refine (layer2_payload_apply x0 x1 x2 p q).trans ?_
  unfold Cert.Spec.rectifiedRowsTimes
  refine Finset.sum_congr rfl fun k _ => ?_
  rw [h0 k, h1 k, h2 k]

-- the TensorCore's buffer contents when the region is entered
variable (V : (c : Dev nD) → (b : Ref sig .tc) → Buf (Elt Ideal) ((c : Thread nD τ).loc b))

/-! ## From the eight blocks to the array -/

theorem layer2_hz : (![0, 0] : Fin 2 → Nat) = fun _ => 0 := funext fun a => by fin_cases a <;> rfl

/-- The block indices over the eight points: the table's and the result's blocks go down the rows together, block
    `t` at point `t`; the bias row and the weight are one block each. -/
theorem layer2_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the specification's array. -/
theorem layer2_flushed (c : Dev nD) (t : Fin cfg1.N) :
    (dat1 (F := Ideal) V c).flushed 3 t
      = ((cfg1.win 3).blk t).view.read (Elt Ideal)
          (Cert.Spec.rectifiedRowsTimes (V c main_v45) (V c main_v46) (V c main_arg3)) := by
  show (cfg1.win 3).cut (grid1.coords t) ((dat1 (F := Ideal) V c).after 3 t) = _
  rw [after1_3]
  unfold out1_3
  rw [View.canon_unit_zero layer2_hz]
  simp only [View.ld_unit_zero (S := S25000x16) layer2_hz, View.ld_unit_zero (S := S1x16) layer2_hz,
    View.ld_unit_zero (S := S16x2) layer2_hz]
  obtain ⟨e00, e01, e10, e11, e20, e21, e30, e31⟩ := layer2_idx_facts t
  funext j
  obtain ⟨p, q, rfl⟩ : ∃ (p : Fin 25000) (q : Fin 2), j = ValueIdx.ix2 p q := ⟨j 0, j 1, ValueIdx.eq_ix2 j⟩
  show k1_pay1 (F := Ideal) (iblk1 V c 0 t) (iblk1 V c 1 t) (iblk1 V c 2 t) (ValueIdx.ix2 p q)
    = Cert.Spec.rectifiedRowsTimes (V c main_v45) (V c main_v46) (V c main_arg3)
        (((cfg1.win 3).blk t).view.emb (ValueIdx.ix2 p q))
  refine layer2_point (V c main_v45) (V c main_v46) (V c main_arg3) _ _ _ _ p q (fun k => ?_) (fun k => ?_) (fun k => ?_)
  · show V c main_v45 (((cfg1.win 0).blk t).view.emb (ValueIdx.ix2 p k)) = _
    refine congrArg (V c main_v45) (funext fun a => Fin.ext ?_)
    match a with
    | ⟨0, _⟩ =>
      show win1_0.index t (0 : Fin 2) * 25000 + 1 * p.val = win1_3.index t (0 : Fin 2) * 25000 + 1 * p.val
      omega
    | ⟨1, _⟩ =>
      show win1_0.index t (1 : Fin 2) * 16 + 1 * k.val = k.val
      omega
  · show V c main_v46 (((cfg1.win 1).blk t).view.emb (ValueIdx.ix2 (0 : Fin 1) k)) = _
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 16 + 1 * k.val = k.val
      omega
  · show V c main_arg3 (((cfg1.win 2).blk t).view.emb (ValueIdx.ix2 k q)) = _
    refine congrArg (V c main_arg3) (funext fun a => Fin.ext ?_)
    match a with
    | ⟨0, _⟩ =>
      show win1_2.index t (0 : Fin 2) * 16 + 1 * k.val = k.val
      omega
    | ⟨1, _⟩ =>
      show win1_2.index t (1 : Fin 2) * 2 + 1 * q.val = win1_3.index t (1 : Fin 2) * 2 + 1 * q.val
      omega

/-- An entry of the array is in point `t`'s block when each coordinate is in the block's range on its axis. -/
theorem layer2_mem_blk (t : Fin cfg1.N) (i : S200000x2.Idx) :
    i ∈ ((cfg1.win 3).blk t).view.set ↔ ∀ a : Fin 2, win1_3.index t a * S25000x2.size a ≤ (i a).val
      ∧ (i a).val < win1_3.index t a * S25000x2.size a + S25000x2.size a := by
  show i ∈ ((View.whole main_v47).slice (win1_3.rect t)).set ↔ _
  rw [View.set_slice_whole, Rect.mem_set_unit]
  exact Iff.rfl

/-- Every row lies in one of the eight blocks: row r in block r / 25000. -/
theorem layer2_cover (i : S200000x2.Idx) :
    ∃ t : Fin cfg1.N, (cfg1.win 3).flush t = true ∧ i ∈ ((cfg1.win 3).blk t).view.set := by
  have hi0 : (i 0).val < 200000 := (i 0).isLt
  have hi1 : (i 1).val < 2 := (i 1).isLt
  have hN : grid1.N = 8 := N_1
  obtain ⟨t, ht⟩ : ∃ t : Fin cfg1.N, t.val = (i 0).val / 25000 :=
    ⟨⟨(i 0).val / 25000, by show (i 0).val / 25000 < grid1.N; rw [hN]; omega⟩, rfl⟩
  obtain ⟨e00, e01, e10, e11, e20, e21, e30, e31⟩ := layer2_idx_facts t
  refine ⟨t, flush1_3 t, ?_⟩
  rw [layer2_mem_blk]
  intro a
  match a with
  | ⟨0, _⟩ =>
    show win1_3.index t (0 : Fin 2) * 25000 ≤ (i 0).val ∧ (i 0).val < win1_3.index t (0 : Fin 2) * 25000 + 25000
    omega
  | ⟨1, _⟩ =>
    show win1_3.index t (1 : Fin 2) * 2 ≤ (i 1).val ∧ (i 1).val < win1_3.index t (1 : Fin 2) * 2 + 2
    omega

theorem layer2_array (c : Dev nD) :
    (dat1 (F := Ideal) V c).arrAt 3 cfg1.N
      = Cert.Spec.rectifiedRowsTimes (V c main_v45) (V c main_v46) (V c main_arg3) :=
  (dat1 (F := Ideal) V c).arrAt_eq_of_cover 3 _ (fun t _ => layer2_flushed V c t) layer2_cover

end Cert.Bridge

end
-- ==== Proof.LogSoftmax.lean ====
/- The third region: bias and a row-wise log-softmax over two columns. With z = a[r, ·] + b2 and m = max(z_0, z_1),
   entry (r, j) of the output is (z_j − m) − log(exp(z_0 − m) + exp(z_1 − m)); the eight blocks tile all rows, so the
   array after the region is that function of the whole aggregate. -/
import proofs.«104902_j22789096472662_1_alg».proof.Proof.Gen.KernelIdeal.Frame
import proofs.«104902_j22789096472662_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)

-- the TensorCore's buffer contents when the region is entered
variable (V : (c : Dev nD) → (b : Ref sig .tc) → Buf (Elt Ideal) ((c : Thread nD τ).loc b))

open Idealize.ShloMosaic.ValueIdx

/-- A [1, 2] row broadcast to [25000, 2] reads, at (p, q), the row's entry q. -/
theorem r2_rowBroadcast_apply {α : Type} (x : S1x2.Idx → α) (h : S1x2.Broadcasts S25000x2) (p : Fin 25000) (q : Fin 2) :
    broadcastTo S25000x2 x h (ix2 p q) = x (ix2 (0 : Fin 1) q) := by
  refine broadcastTo_apply x h (ix2 p q) (ix2 (0 : Fin 1) q) ?_
  intro a
  match a with
  | ⟨0, _⟩ => rfl
  | ⟨1, _⟩ => rfl

/-- A length-25000 vector viewed as a [25000, 1] column and broadcast to [25000, 2] reads, at (p, q), entry p. -/
theorem r2_columnBroadcast_apply {α : Type} (x : S25000.Idx → α) (h : S25000.ShapeCasts S25000x1)
    (h' : S25000x1.Broadcasts S25000x2) (p : Fin 25000) (q : Fin 2) :
    broadcastTo S25000x2 (shapeCast S25000x1 x h) h' (ix2 p q) = x (ix1 p) := by
  refine (broadcastTo_apply (shapeCast S25000x1 x h) h' (ix2 p q) (ix2 p (0 : Fin 1)) ?_).trans ?_
  · intro a
    match a with
    | ⟨0, _⟩ => rfl
    | ⟨1, _⟩ => rfl
  · refine shapeCast_apply x h (ix2 p (0 : Fin 1)) (ix1 p) ?_
    rw [Shape.rowMajor_val_one, Shape.rowMajor_val_two]
    show p.val = p.val * 1 + 0
    omega

/-- The index over row p whose lane coordinate is k. -/
theorem r2_lift_eq (h : S25000x2.Reduces [1] S25000) (p : Fin 25000) (k : Fin 2) :
    h.lift (ix1 p) k = ix2 p k := by
  funext a
  match a with
  | ⟨0, _⟩ => exact Fin.ext rfl
  | ⟨1, _⟩ => exact Fin.ext rfl

/-- The lane maximum of a [25000, 2] table, at row p: the fold of max from the −∞ word over the row's two entries. -/
theorem r2_laneMax_apply (src : FVec Ideal S25000x2 .f32) (h : S25000x2.Reduces [1] S25000) (hφ : FKind.Formats .f32)
    (hacc : (0xFF800000#32 : BitVec (FTy.bits .f32)) = FKind.maximumf.neutral .f32 hφ) (p : Fin 25000) :
    multiReduction .maximumf [1] S25000 src 0xFF800000#32 h hφ hacc (ix1 p)
      = Cert.Spec.rowMax (fun j => src (ix2 p j)) := by
  refine (Ideal.multiReduction_maximumf_single src 0xFF800000#32 h hφ hacc (ix1 p)).trans ?_
  unfold Cert.Spec.rowMax
  refine congrArg (fun f => (Finset.univ : Finset (Fin 2)).fold max (Ideal.ofBits .f32 0xFF800000#32) f) ?_
  funext k
  exact congrArg src (r2_lift_eq h p k)

/-- The lane sum of a [25000, 2] table, at row p: the sum of the row's two entries. -/
theorem r2_laneSum_apply (src : FVec Ideal S25000x2 .f32) (h : S25000x2.Reduces [1] S25000) (hφ : FKind.Formats .f32)
    (hacc : (0x00000000#32 : BitVec (FTy.bits .f32)) = FKind.add.neutral .f32 hφ) (p : Fin 25000) :
    multiReduction .add [1] S25000 src 0x00000000#32 h hφ hacc (ix1 p)
      = ∑ j : Fin 2, src (ix2 p j) := by
  refine (Ideal.multiReduction_add_single src 0x00000000#32 h hφ hacc (ix1 p)).trans ?_
  exact Finset.sum_congr rfl fun k _ => congrArg src (r2_lift_eq h p k)

/-- The pointwise exponential at an index, in the extended reals. -/
theorem r2_exp_apply {s : Shape} {φ : FTy} (x : FVec Ideal s φ) (i : s.Idx) : exp x i = Ideal.exp (x i) := rfl

/-- The logarithm of a length-25000 vector, viewed as a column and broadcast to [25000, 2], reads at (p, q) the
    logarithm of entry p. -/
theorem r2_columnBroadcast_log_apply (x : FVec Ideal S25000 .f32) (h : S25000.ShapeCasts S25000x1)
    (h' : S25000x1.Broadcasts S25000x2) (p : Fin 25000) (q : Fin 2) :
    broadcastTo S25000x2 (log (shapeCast S25000x1 x h)) h' (ix2 p q) = Ideal.log (x (ix1 p)) :=
  r2_columnBroadcast_apply (α := EReal) (fun i => Ideal.log (x i)) h h' p q

/-- The row-wise log-softmax as the body writes it — subtract the lane maximum, exponentiate, sum the lanes, subtract
    the logarithm of the sum — read at entry (p, q) of any [25000, 2] table. -/
theorem r2_logSoftmax_apply (v : FVec Ideal S25000x2 .f32) (hr : S25000x2.Reduces [1] S25000) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S25000.ShapeCasts S25000x1) (hb : S25000x1.Broadcasts S25000x2) (p : Fin 25000) (q : Fin 2) :
    subf (subf v (broadcastTo S25000x2 (shapeCast S25000x1 (multiReduction .maximumf [1] S25000 v 0xFF800000#32 hr hφ hmax) hc) hb))
        (broadcastTo S25000x2 (log (shapeCast S25000x1
          (multiReduction .add [1] S25000
            (exp (subf v (broadcastTo S25000x2 (shapeCast S25000x1 (multiReduction .maximumf [1] S25000 v 0xFF800000#32 hr hφ hmax) hc) hb)))
            0x00000000#32 hr hφ hadd) hc)) hb) (ix2 p q)
      = (v (ix2 p q) - Cert.Spec.rowMax (fun j => v (ix2 p j)))
          - Ideal.log (∑ j : Fin 2, Ideal.exp (v (ix2 p j) - Cert.Spec.rowMax (fun k => v (ix2 p k)))) := by
  have hM : ∀ j : Fin 2,
      broadcastTo S25000x2 (shapeCast S25000x1 (multiReduction .maximumf [1] S25000 v 0xFF800000#32 hr hφ hmax) hc) hb (ix2 p j)
        = Cert.Spec.rowMax (fun k => v (ix2 p k)) :=
    fun j => (r2_columnBroadcast_apply _ hc hb p j).trans (r2_laneMax_apply v hr hφ hmax p)
  rw [subf_apply, subf_apply, hM q]
  refine congrArg (fun t => (v (ix2 p q) - Cert.Spec.rowMax (fun j => v (ix2 p j))) - t) ?_
  refine (r2_columnBroadcast_log_apply _ hc hb p q).trans (congrArg Ideal.log ?_)
  refine (r2_laneSum_apply _ hr hφ hadd p).trans (Finset.sum_congr rfl fun j _ => ?_)
  rw [r2_exp_apply, subf_apply, hM j]

/-- A [25000, 2] block plus a broadcast [1, 2] row, at (p, j). -/
theorem r2_biased_apply (v0 : FVec Ideal S25000x2 .f32) (v2 : FVec Ideal S1x2 .f32) (h : S1x2.Broadcasts S25000x2)
    (p : Fin 25000) (j : Fin 2) :
    addf v0 (broadcastTo S25000x2 v2 h) (ix2 p j) = v0 (ix2 p j) + v2 (ix2 (0 : Fin 1) j) := by
  rw [addf_apply, r2_rowBroadcast_apply]

/-- THE BODY'S PAYLOAD at entry (p, q): with z = (block row p) + (bias row), (z q − max z) − log Σ exp (z j − max z). -/
theorem r2_payload_apply (v0 : Vec Ideal S25000x2 .f32) (v2 : Vec Ideal S1x2 .f32) (p : Fin 25000) (q : Fin 2) :
    k2_pay1 (F := Ideal) v0 v2 (ix2 p q)
      = ((v0 (ix2 p q) + v2 (ix2 (0 : Fin 1) q))
            - Cert.Spec.rowMax (fun j => v0 (ix2 p j) + v2 (ix2 (0 : Fin 1) j)))
        - Ideal.log (∑ j : Fin 2, Ideal.exp ((v0 (ix2 p j) + v2 (ix2 (0 : Fin 1) j))
            - Cert.Spec.rowMax (fun k => v0 (ix2 p k) + v2 (ix2 (0 : Fin 1) k)))) := by
  unfold k2_pay1
  rw [shapeCast_self, shapeCast_self]
  refine (r2_logSoftmax_apply _ _ _ _ _ _ _ p q).trans ?_
  simp only [r2_biased_apply]

/-- The payload at (p, q) is the specification at array index i, whenever the block's row p holds the array's row i 0,
    the bias block holds the bias row, and i's column is q. -/
theorem r2_payload_eq_spec (a : S200000x2.Idx → EReal) (b : S1x2.Idx → EReal)
    (x0 : Vec Ideal S25000x2 .f32) (x1 : Vec Ideal S1x2 .f32) (p : Fin 25000) (q : Fin 2) (i : S200000x2.Idx)
    (h0 : ∀ j : Fin 2, x0 (ix2 p j) = a (ix2 (i 0) j)) (h1 : ∀ j : Fin 2, x1 (ix2 (0 : Fin 1) j) = b (ix2 (0 : Fin 1) j))
    (hi : i 1 = q) :
    k2_pay1 (F := Ideal) x0 x1 (ix2 p q) = Cert.Spec.logSoftmaxRows a b i := by
  rw [r2_payload_apply]
  unfold Cert.Spec.logSoftmaxRows Cert.Spec.biased
  simp only [h0, h1]
  rw [hi]

/-- The zero offsets of a whole-block load or store, however spelt. -/
theorem r2_hz : (![0, 0] : Fin 2 → Nat) = fun _ => 0 := funext fun a => by fin_cases a <;> rfl

/-- The printed index maps over the eight grid points: the input block moves with the output block, which is block t
    of the rows; the bias block and every column block index stay at zero. -/
theorem r2_idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- WHAT POINT t WRITES BACK is block t of the specification's table of the two arrays as the region finds them: row p
    of the block is row 25000·t + p of the aggregate, the bias block is the whole bias row. -/
theorem r2_flushed_eq (c : Dev nD) (t : Fin cfg2.N) :
    (dat2 (F := Ideal) V c).flushed 2 t
      = ((cfg2.win 2).blk t).view.read (Elt Ideal) (Cert.Spec.logSoftmaxRows (V c main_v59) (V c main_v60)) := by
  show (cfg2.win 2).cut (grid2.coords t) ((dat2 V c).after 2 t) = _
  rw [after2_2]
  unfold out2_2
  rw [View.canon_unit_zero r2_hz]
  simp only [View.ld_unit_zero (S := S25000x2) r2_hz, View.ld_unit_zero (S := S1x2) r2_hz]
  funext j
  obtain ⟨p, q, rfl⟩ : ∃ (p : Fin 25000) (q : Fin 2), j = ix2 p q := ⟨j 0, j 1, eq_ix2 j⟩
  obtain ⟨e0, e1, e2, e3, e4, e5⟩ := r2_idx_facts t
  show k2_pay1 (iblk2 V c 0 t) (iblk2 V c 1 t) (ix2 p q)
    = Cert.Spec.logSoftmaxRows (V c main_v59) (V c main_v60) (((cfg2.win 2).blk t).view.emb (ix2 p q))
  refine r2_payload_eq_spec (V c main_v59) (V c main_v60) _ _ p q _ ?_ ?_ ?_
  · intro j
    show V c main_v59 (((cfg2.win 0).blk t).view.emb (ix2 p j)) = _
    refine congrArg (V c main_v59) ?_
    funext a; apply Fin.ext
    match a with
    | ⟨0, _⟩ => show win2_0.index t (0 : Fin 2) * 25000 + 1 * p.val = win2_2.index t (0 : Fin 2) * 25000 + 1 * p.val; omega
    | ⟨1, _⟩ => show win2_0.index t (1 : Fin 2) * 2 + 1 * j.val = j.val; omega
  · intro j
    show V c main_v60 (((cfg2.win 1).blk t).view.emb (ix2 (0 : Fin 1) j)) = _
    refine congrArg (V c main_v60) ?_
    funext a; apply Fin.ext
    match a with
    | ⟨0, _⟩ => show win2_1.index t (0 : Fin 2) * 1 + 1 * 0 = 0; omega
    | ⟨1, _⟩ => show win2_1.index t (1 : Fin 2) * 2 + 1 * j.val = j.val; omega
  · apply Fin.ext
    show win2_2.index t (1 : Fin 2) * 2 + 1 * q.val = q.val; omega

/-- An index of the array is in point t's block iff each coordinate is in the block's range on its axis. -/
theorem r2_mem_blk (t : Fin cfg2.N) (i : S200000x2.Idx) :
    i ∈ ((cfg2.win 2).blk t).view.set
      ↔ ∀ a : Fin 2, win2_2.index t a * S25000x2.size a ≤ (i a).val
          ∧ (i a).val < win2_2.index t a * S25000x2.size a + S25000x2.size a := by
  show i ∈ ((View.whole main_v61).slice (win2_2.rect t)).set ↔ _
  rw [View.set_slice_whole, Rect.mem_set_unit]
  exact Iff.rfl

/-- Every row r lies in the block of point r / 25000: the eight blocks tile the 200000 rows. -/
theorem r2_cover (i : S200000x2.Idx) :
    ∃ t : Fin cfg2.N, (cfg2.win 2).flush t = true ∧ i ∈ ((cfg2.win 2).blk t).view.set := by
  have hi0 : (i 0).val < 200000 := (i 0).isLt
  have hi1 : (i 1).val < 2 := (i 1).isLt
  have hN : (i 0).val / 25000 < cfg2.N := by
    show (i 0).val / 25000 < grid2.N
    rw [N_2]; omega
  obtain ⟨e0, e1, e2, e3, e4, e5⟩ := r2_idx_facts ⟨(i 0).val / 25000, hN⟩
  refine ⟨⟨(i 0).val / 25000, hN⟩, flush2_2 _, ?_⟩
  rw [r2_mem_blk]
  intro a
  match a with
  | ⟨0, _⟩ =>
    show win2_2.index ⟨(i 0).val / 25000, hN⟩ (0 : Fin 2) * 25000 ≤ (i 0).val
      ∧ (i 0).val < win2_2.index ⟨(i 0).val / 25000, hN⟩ (0 : Fin 2) * 25000 + 25000
    have e5' : win2_2.index ⟨(i 0).val / 25000, hN⟩ (0 : Fin 2) = (i 0).val / 25000 := e5
    omega
  | ⟨1, _⟩ =>
    show win2_2.index ⟨(i 0).val / 25000, hN⟩ (1 : Fin 2) * 2 ≤ (i 1).val
      ∧ (i 1).val < win2_2.index ⟨(i 0).val / 25000, hN⟩ (1 : Fin 2) * 2 + 2
    omega

/-- THE ARRAY AFTER THE REGION: every point writes its block of the specification's table and the blocks cover every
    index, so the array is that table. -/
theorem logsoftmax_array (c : Dev nD) :
    (dat2 (F := Ideal) V c).arrAt 2 cfg2.N = Cert.Spec.logSoftmaxRows (V c main_v59) (V c main_v60) :=
  (dat2 (F := Ideal) V c).arrAt_eq_of_cover 2 _ (fun t _ => r2_flushed_eq V c t) r2_cover

end Cert.Bridge

end
-- ==== Proof.HostKeeps.lean ====
/- What the host stretches between the regions leave alone, and the two bias rows. No host operation writes an
   argument array; the edge lists and the edge weight, once computed, are only read; and a bias vector of length n
   viewed as a 1 × n row holds the same numbers, entry q of the vector at (0, q) of the row. -/
import proofs.«104902_j22789096472662_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable {F : FTy → Type} [FloatOps F]

/-- The stretch that builds the edge lists and the degrees writes no argument array. -/
theorem edges_keep (X : Valuation τ sig (Elt F)) :
    StableHlo.after hostOps0 X (Proc.devRef .tc main_arg0) = X (Proc.devRef .tc main_arg0)
    ∧ StableHlo.after hostOps0 X (Proc.devRef .tc main_arg1) = X (Proc.devRef .tc main_arg1)
    ∧ StableHlo.after hostOps0 X (Proc.devRef .tc main_arg2) = X (Proc.devRef .tc main_arg2)
    ∧ StableHlo.after hostOps0 X (Proc.devRef .tc main_arg3) = X (Proc.devRef .tc main_arg3)
    ∧ StableHlo.after hostOps0 X (Proc.devRef .tc main_arg4) = X (Proc.devRef .tc main_arg4) := by
  -- none of these buffers is the result of an operation of the stretch
  refine ⟨?_, ?_, ?_, ?_, ?_⟩ <;> after_results_simp

/-- The positivity selection writes neither edge list nor any argument array. -/
theorem where_keeps (X : Valuation τ sig (Elt F)) :
    StableHlo.after hostOps0_1 X (Proc.devRef .tc main_v3) = X (Proc.devRef .tc main_v3)
    ∧ StableHlo.after hostOps0_1 X (Proc.devRef .tc main_v6) = X (Proc.devRef .tc main_v6)
    ∧ StableHlo.after hostOps0_1 X (Proc.devRef .tc main_arg0) = X (Proc.devRef .tc main_arg0)
    ∧ StableHlo.after hostOps0_1 X (Proc.devRef .tc main_arg1) = X (Proc.devRef .tc main_arg1)
    ∧ StableHlo.after hostOps0_1 X (Proc.devRef .tc main_arg2) = X (Proc.devRef .tc main_arg2)
    ∧ StableHlo.after hostOps0_1 X (Proc.devRef .tc main_arg3) = X (Proc.devRef .tc main_arg3)
    ∧ StableHlo.after hostOps0_1 X (Proc.devRef .tc main_arg4) = X (Proc.devRef .tc main_arg4) := by
  -- none of these buffers is the result of an operation of the stretch
  refine ⟨?_, ?_, ?_, ?_, ?_, ?_, ?_⟩ <;> after_results_simp

/-- The edge-weight stretch writes neither edge list nor any argument array. -/
theorem weight_keeps (X : Valuation τ sig (Elt F)) :
    StableHlo.after hostOps0_2 X (Proc.devRef .tc main_v3) = X (Proc.devRef .tc main_v3)
    ∧ StableHlo.after hostOps0_2 X (Proc.devRef .tc main_v6) = X (Proc.devRef .tc main_v6)
    ∧ StableHlo.after hostOps0_2 X (Proc.devRef .tc main_arg0) = X (Proc.devRef .tc main_arg0)
    ∧ StableHlo.after hostOps0_2 X (Proc.devRef .tc main_arg1) = X (Proc.devRef .tc main_arg1)
    ∧ StableHlo.after hostOps0_2 X (Proc.devRef .tc main_arg2) = X (Proc.devRef .tc main_arg2)
    ∧ StableHlo.after hostOps0_2 X (Proc.devRef .tc main_arg3) = X (Proc.devRef .tc main_arg3)
    ∧ StableHlo.after hostOps0_2 X (Proc.devRef .tc main_arg4) = X (Proc.devRef .tc main_arg4) := by
  -- none of these buffers is the result of an operation of the stretch
  refine ⟨?_, ?_, ?_, ?_, ?_, ?_, ?_⟩ <;> after_results_simp

/-- The first aggregation writes neither edge list, nor the edge weight, nor the last two argument arrays. -/
theorem agg16_keeps (X : Valuation τ sig (Elt F)) :
    StableHlo.after hostOps1 X (Proc.devRef .tc main_v3) = X (Proc.devRef .tc main_v3)
    ∧ StableHlo.after hostOps1 X (Proc.devRef .tc main_v6) = X (Proc.devRef .tc main_v6)
    ∧ StableHlo.after hostOps1 X (Proc.devRef .tc main_v32) = X (Proc.devRef .tc main_v32)
    ∧ StableHlo.after hostOps1 X (Proc.devRef .tc main_arg3) = X (Proc.devRef .tc main_arg3)
    ∧ StableHlo.after hostOps1 X (Proc.devRef .tc main_arg4) = X (Proc.devRef .tc main_arg4) := by
  -- none of these buffers is the result of an operation of the stretch
  refine ⟨?_, ?_, ?_, ?_, ?_⟩ <;> after_results_simp

/-- The first bias as a 1 × 16 row: entry (0, q) is entry q of the vector. -/
theorem bias16_row (X : Valuation τ sig (Elt F)) (q : Fin 16) :
    (StableHlo.after hostOps1 X (Proc.devRef .tc main_v46) : (⟨S1x16, .f32⟩ : BufTy).Contents (Elt F)) (ValueIdx.ix2 (0 : Fin 1) q)
      = (X (Proc.devRef .tc main_arg2) : (⟨S16, .f32⟩ : BufTy).Contents (Elt F)) (ValueIdx.ix1 q) := by
  -- the stretch's last operation views the vector as a row with a leading unit axis; such a view read at (0, q)
  -- is the vector at the remaining coordinate q
  after_results_simp
  refine (shapeCast_addUnit_apply ![16] (X (Proc.devRef .tc main_arg2) : (⟨S16, .f32⟩ : BufTy).Contents (Elt F)) _ _).trans ?_
  refine congrArg (X (Proc.devRef .tc main_arg2) : (⟨S16, .f32⟩ : BufTy).Contents (Elt F)) (funext fun a => ?_)
  match a with
  | ⟨0, _⟩ => rfl

/-- The second bias as a 1 × 2 row: entry (0, j) is entry j of the vector. -/
theorem bias2_row (X : Valuation τ sig (Elt F)) (j : Fin 2) :
    (StableHlo.after hostOps2 X (Proc.devRef .tc main_v60) : (⟨S1x2, .f32⟩ : BufTy).Contents (Elt F)) (ValueIdx.ix2 (0 : Fin 1) j)
      = (X (Proc.devRef .tc main_arg4) : (⟨S2, .f32⟩ : BufTy).Contents (Elt F)) (ValueIdx.ix1 j) := by
  -- the stretch's last operation views the vector as a row with a leading unit axis; such a view read at (0, j)
  -- is the vector at the remaining coordinate j
  after_results_simp
  refine (shapeCast_addUnit_apply ![2] (X (Proc.devRef .tc main_arg4) : (⟨S2, .f32⟩ : BufTy).Contents (Elt F)) _ _).trans ?_
  refine congrArg (X (Proc.devRef .tc main_arg4) : (⟨S2, .f32⟩ : BufTy).Contents (Elt F)) (funext fun a => ?_)
  match a with
  | ⟨0, _⟩ => rfl

end Cert.Bridge

end
-- ==== Proof.HostChain.lean ====
/- The host operations between the three regions. The kernel's program and the reference run the same chain of
   host operations on the same index array: the edge lists with self-loops (src, dst), the in-degree by a scatter-add
   of ones, deg^(-1/2) where the degree is positive, the edge weight norm = deg^(-1/2)[src] · deg^(-1/2)[dst], and
   twice the aggregation segment_sum(norm · table[src], dst) of a node table. Each stretch is read here over ANY
   contents X of the buffers it starts from: if X holds the reference's stage values at the buffers the stretch
   reads, it leaves the reference's stage values at the buffers it writes. Gathers, scatters and concatenations are
   never opened: the two sides apply the same operation to equal operands. Then the stretches and the three regions'
   arrays are chained from the launch memory to the result. -/
import proofs.«104902_j22789096472662_1_alg».proof.Proof.Gen.KernelIdeal.Frame
import proofs.«104902_j22789096472662_1_alg».proof.Proof.RefRead
import proofs.«104902_j22789096472662_1_alg».proof.Proof.RefProducts
import proofs.«104902_j22789096472662_1_alg».proof.Proof.RefSoftmax
import proofs.«104902_j22789096472662_1_alg».proof.Proof.Linear1
import proofs.«104902_j22789096472662_1_alg».proof.Proof.Layer2
import proofs.«104902_j22789096472662_1_alg».proof.Proof.LogSoftmax
import proofs.«104902_j22789096472662_1_alg».proof.Proof.HostKeeps
import Idealize.ShloMosaic.Lib.StableHlo.Run

set_option maxRecDepth 16384

noncomputable section

namespace Cert.Bridge

open Cert.KernelIdeal Cert.KernelIdeal.Gen Cert.ReferenceIdeal.ReadP
open Idealize.ShloMosaic Idealize.ShloMosaic.TcCoe Idealize.SL.Sem Idealize.ShloMosaic.StableHlo

/-! ## Each stretch over any starting contents, at any float family -/

section Stretches

variable {F : FTy → Type} [FloatOps F]

/-! ### Edge lists, degrees, and deg^(-1/2) before the positivity test -/

set_option maxHeartbeats 4000000 in
/-- The source list: the first row of the index array followed by every node's own index. -/
theorem edges_src (X : Valuation τ sig (Elt F)) :
    StableHlo.after hostOps0 X (Proc.devRef .tc main_v3) = val_main_v3 (F := F) (X (Proc.devRef .tc main_arg5)) := by
  after_results
  rfl

set_option maxHeartbeats 4000000 in
/-- The destination list: the second row of the index array followed by every node's own index. -/
theorem edges_dst (X : Valuation τ sig (Elt F)) :
    StableHlo.after hostOps0 X (Proc.devRef .tc main_v6) = val_main_v6 (F := F) (X (Proc.devRef .tc main_arg5)) := by
  after_results
  rfl

set_option maxHeartbeats 4000000 in
/-- Where the in-degree (a scatter-add of ones at the destinations) is positive. -/
theorem degree_positive (X : Valuation τ sig (Elt F)) :
    StableHlo.after hostOps0 X (Proc.devRef .tc main_v12) = val_main_v12 (F := F) (X (Proc.devRef .tc main_arg5)) := by
  after_results
  rfl

set_option maxHeartbeats 4000000 in
/-- The reciprocal square root of the in-degree raised to at least one. -/
theorem degree_rsqrt (X : Valuation τ sig (Elt F)) :
    StableHlo.after hostOps0 X (Proc.devRef .tc main_v15) = val_main_v15 (F := F) (X (Proc.devRef .tc main_arg5)) := by
  after_results
  rfl

/-- The zero the positivity test falls back to. -/
theorem degree_zero (X : Valuation τ sig (Elt F)) :
    StableHlo.after hostOps0 X (Proc.devRef .tc main_cst_3) = val_main_cst_3 (F := F) := by
  after_results_simp
  rfl

/-! ### deg^(-1/2) where the degree is positive, zero elsewhere -/

/-- The selection keeps the reciprocal square root where the degree is positive. -/
theorem inv_sqrt_degree (X : Valuation τ sig (Elt F)) (x5 : (⟨S2x3200000, .i32⟩ : BufTy).Contents (Elt F))
    (h12 : X (Proc.devRef .tc main_v12) = val_main_v12 (F := F) x5)
    (h15 : X (Proc.devRef .tc main_v15) = val_main_v15 (F := F) x5)
    (hz : X (Proc.devRef .tc main_cst_3) = val_main_cst_3 (F := F)) :
    StableHlo.after hostOps0_1 X (Proc.devRef .tc main_v16) = val_main_v16 (F := F) x5 := by
  after_results_simp
  simp only [TRef.ofBuf, TRef.toBuf, cast_eq]
  rw [h12, h15, hz]
  rfl

/-! ### The edge weight: deg^(-1/2) gathered at both ends of every edge, multiplied -/

set_option maxHeartbeats 4000000 in
/-- The edge weight as a column, from the edge lists and deg^(-1/2). -/
theorem edge_weight (X : Valuation τ sig (Elt F)) (x5 : (⟨S2x3200000, .i32⟩ : BufTy).Contents (Elt F))
    (h3 : X (Proc.devRef .tc main_v3) = val_main_v3 (F := F) x5)
    (h6 : X (Proc.devRef .tc main_v6) = val_main_v6 (F := F) x5)
    (h16 : X (Proc.devRef .tc main_v16) = val_main_v16 (F := F) x5) :
    StableHlo.after hostOps0_2 X (Proc.devRef .tc main_v32) = val_main_v33 (F := F) x5 := by
  after_results_simp
  rw [h3, h6, h16]
  rfl

/-! ### The first aggregation, of the 16-column table -/

set_option maxHeartbeats 4000000 in
/-- Rows of the table gathered at the sources, weighted, and summed at the destinations. -/
theorem aggregate16 (X : Valuation τ sig (Elt F))
    (x0 : (⟨S200000x16, .f32⟩ : BufTy).Contents (Elt F)) (x1 : (⟨S16x16, .f32⟩ : BufTy).Contents (Elt F))
    (x5 : (⟨S2x3200000, .i32⟩ : BufTy).Contents (Elt F))
    (h3 : X (Proc.devRef .tc main_v3) = val_main_v3 (F := F) x5)
    (h6 : X (Proc.devRef .tc main_v6) = val_main_v6 (F := F) x5)
    (h32 : X (Proc.devRef .tc main_v32) = val_main_v33 (F := F) x5)
    (h33 : X (Proc.devRef .tc main_v33) = val_main_v17 (F := F) x0 x1) :
    StableHlo.after hostOps1 X (Proc.devRef .tc main_v45) = val_main_v45 (F := F) x0 x1 x5 := by
  after_results_simp
  rw [h3, h6, h32, h33]
  rfl

/-! ### The second aggregation, of the 2-column table -/

set_option maxHeartbeats 4000000 in
/-- The same aggregation of the 2-column table. The reference computes the edge weight a second time; it is the same
    function of the index array. -/
theorem aggregate2 (X : Valuation τ sig (Elt F))
    (x0 : (⟨S200000x16, .f32⟩ : BufTy).Contents (Elt F)) (x1 : (⟨S16x16, .f32⟩ : BufTy).Contents (Elt F))
    (x2 : (⟨S16, .f32⟩ : BufTy).Contents (Elt F)) (x3 : (⟨S16x2, .f32⟩ : BufTy).Contents (Elt F))
    (x5 : (⟨S2x3200000, .i32⟩ : BufTy).Contents (Elt F))
    (h3 : X (Proc.devRef .tc main_v3) = val_main_v3 (F := F) x5)
    (h6 : X (Proc.devRef .tc main_v6) = val_main_v6 (F := F) x5)
    (h32 : X (Proc.devRef .tc main_v32) = val_main_v66 (F := F) x5)
    (h47 : X (Proc.devRef .tc main_v47) = val_main_v50 (F := F) x0 x1 x2 x3 x5) :
    StableHlo.after hostOps2 X (Proc.devRef .tc main_v59) = val_main_v78 (F := F) x0 x1 x2 x3 x5 := by
  after_results_simp
  rw [h3, h6, h32, h47]
  rfl

/-- The edge weight the reference computes again before the second aggregation is the first one. -/
theorem edge_weight_again (x5 : (⟨S2x3200000, .i32⟩ : BufTy).Contents (Elt F)) :
    val_main_v66 (F := F) x5 = val_main_v33 (F := F) x5 := rfl

end Stretches

/-! ## The chain, from the launch memory to the result -/

section Chain

variable (m : (ℓ : Loc nD τ sig) → Buf (Elt Ideal) ℓ) (ρ : Dev nD → PrngReg) (c : Dev nD)

/-! ### After the edge lists and the degrees -/

theorem w1_src : W1 m ρ c (Proc.devRef .tc main_v3) = val_main_v3 (F := Ideal) (m ((c.tc : Thread nD τ).loc main_arg5)) := edges_src (W0 m ρ c)
theorem w1_dst : W1 m ρ c (Proc.devRef .tc main_v6) = val_main_v6 (F := Ideal) (m ((c.tc : Thread nD τ).loc main_arg5)) := edges_dst (W0 m ρ c)
theorem w1_pos : W1 m ρ c (Proc.devRef .tc main_v12) = val_main_v12 (F := Ideal) (m ((c.tc : Thread nD τ).loc main_arg5)) := degree_positive (W0 m ρ c)
theorem w1_rsqrt : W1 m ρ c (Proc.devRef .tc main_v15) = val_main_v15 (F := Ideal) (m ((c.tc : Thread nD τ).loc main_arg5)) := degree_rsqrt (W0 m ρ c)
theorem w1_zero : W1 m ρ c (Proc.devRef .tc main_cst_3) = val_main_cst_3 (F := Ideal) := degree_zero (W0 m ρ c)

/-! ### After the positivity selection -/

theorem w2_invsqrt : W2 m ρ c (Proc.devRef .tc main_v16) = val_main_v16 (F := Ideal) (m ((c.tc : Thread nD τ).loc main_arg5)) :=
  inv_sqrt_degree (W1 m ρ c) (m ((c.tc : Thread nD τ).loc main_arg5)) (w1_pos m ρ c) (w1_rsqrt m ρ c) (w1_zero m ρ c)
theorem w2_src : W2 m ρ c (Proc.devRef .tc main_v3) = val_main_v3 (F := Ideal) (m ((c.tc : Thread nD τ).loc main_arg5)) :=
  (where_keeps (W1 m ρ c)).1.trans (w1_src m ρ c)
theorem w2_dst : W2 m ρ c (Proc.devRef .tc main_v6) = val_main_v6 (F := Ideal) (m ((c.tc : Thread nD τ).loc main_arg5)) :=
  (where_keeps (W1 m ρ c)).2.1.trans (w1_dst m ρ c)

/-! ### After the edge weight: the first region's entry -/

theorem w3_weight : W3 m ρ c (Proc.devRef .tc main_v32) = val_main_v33 (F := Ideal) (m ((c.tc : Thread nD τ).loc main_arg5)) :=
  edge_weight (W2 m ρ c) (m ((c.tc : Thread nD τ).loc main_arg5)) (w2_src m ρ c) (w2_dst m ρ c) (w2_invsqrt m ρ c)
theorem w3_src : W3 m ρ c (Proc.devRef .tc main_v3) = val_main_v3 (F := Ideal) (m ((c.tc : Thread nD τ).loc main_arg5)) :=
  (weight_keeps (W2 m ρ c)).1.trans (w2_src m ρ c)
theorem w3_dst : W3 m ρ c (Proc.devRef .tc main_v6) = val_main_v6 (F := Ideal) (m ((c.tc : Thread nD τ).loc main_arg5)) :=
  (weight_keeps (W2 m ρ c)).2.1.trans (w2_dst m ρ c)
theorem w3_arg0 : W3 m ρ c (Proc.devRef .tc main_arg0) = (m ((c.tc : Thread nD τ).loc main_arg0)) :=
  (weight_keeps (W2 m ρ c)).2.2.1.trans ((where_keeps (W1 m ρ c)).2.2.1.trans (edges_keep (W0 m ρ c)).1)
theorem w3_arg1 : W3 m ρ c (Proc.devRef .tc main_arg1) = (m ((c.tc : Thread nD τ).loc main_arg1)) :=
  (weight_keeps (W2 m ρ c)).2.2.2.1.trans ((where_keeps (W1 m ρ c)).2.2.2.1.trans (edges_keep (W0 m ρ c)).2.1)
theorem w3_arg2 : W3 m ρ c (Proc.devRef .tc main_arg2) = (m ((c.tc : Thread nD τ).loc main_arg2)) :=
  (weight_keeps (W2 m ρ c)).2.2.2.2.1.trans ((where_keeps (W1 m ρ c)).2.2.2.2.1.trans (edges_keep (W0 m ρ c)).2.2.1)
theorem w3_arg3 : W3 m ρ c (Proc.devRef .tc main_arg3) = (m ((c.tc : Thread nD τ).loc main_arg3)) :=
  (weight_keeps (W2 m ρ c)).2.2.2.2.2.1.trans ((where_keeps (W1 m ρ c)).2.2.2.2.2.1.trans (edges_keep (W0 m ρ c)).2.2.2.1)
theorem w3_arg4 : W3 m ρ c (Proc.devRef .tc main_arg4) = (m ((c.tc : Thread nD τ).loc main_arg4)) :=
  (weight_keeps (W2 m ρ c)).2.2.2.2.2.2.trans ((where_keeps (W1 m ρ c)).2.2.2.2.2.2.trans (edges_keep (W0 m ρ c)).2.2.2.2)

/-! ### After the first region: the node table times the first weight -/

theorem w4_table : W4 m ρ c (Proc.devRef .tc main_v33) = val_main_v17 (F := Ideal) (m ((c.tc : Thread nD τ).loc main_arg0)) (m ((c.tc : Thread nD τ).loc main_arg1)) := by
  refine (W4_arr m ρ c 2).trans ((linear1_array (V3 m ρ) c).trans ?_)
  rw [show V3 m ρ c main_arg0 = (m ((c.tc : Thread nD τ).loc main_arg0)) from w3_arg0 m ρ c, show V3 m ρ c main_arg1 = (m ((c.tc : Thread nD τ).loc main_arg1)) from w3_arg1 m ρ c]
  exact (ref_rowsTimes _ _).symm
theorem w4_src : W4 m ρ c (Proc.devRef .tc main_v3) = val_main_v3 (F := Ideal) (m ((c.tc : Thread nD τ).loc main_arg5)) :=
  (W4_of_ne m ρ c main_v3 (by decide)).trans (w3_src m ρ c)
theorem w4_dst : W4 m ρ c (Proc.devRef .tc main_v6) = val_main_v6 (F := Ideal) (m ((c.tc : Thread nD τ).loc main_arg5)) :=
  (W4_of_ne m ρ c main_v6 (by decide)).trans (w3_dst m ρ c)
theorem w4_weight : W4 m ρ c (Proc.devRef .tc main_v32) = val_main_v33 (F := Ideal) (m ((c.tc : Thread nD τ).loc main_arg5)) :=
  (W4_of_ne m ρ c main_v32 (by decide)).trans (w3_weight m ρ c)
theorem w4_arg2 : W4 m ρ c (Proc.devRef .tc main_arg2) = (m ((c.tc : Thread nD τ).loc main_arg2)) := (W4_of_ne m ρ c main_arg2 (by decide)).trans (w3_arg2 m ρ c)
theorem w4_arg3 : W4 m ρ c (Proc.devRef .tc main_arg3) = (m ((c.tc : Thread nD τ).loc main_arg3)) := (W4_of_ne m ρ c main_arg3 (by decide)).trans (w3_arg3 m ρ c)
theorem w4_arg4 : W4 m ρ c (Proc.devRef .tc main_arg4) = (m ((c.tc : Thread nD τ).loc main_arg4)) := (W4_of_ne m ρ c main_arg4 (by decide)).trans (w3_arg4 m ρ c)

/-! ### After the first aggregation: the second region's entry -/

theorem w5_agg : W5 m ρ c (Proc.devRef .tc main_v45) = val_main_v45 (F := Ideal) (m ((c.tc : Thread nD τ).loc main_arg0)) (m ((c.tc : Thread nD τ).loc main_arg1)) (m ((c.tc : Thread nD τ).loc main_arg5)) :=
  aggregate16 (W4 m ρ c) (m ((c.tc : Thread nD τ).loc main_arg0)) (m ((c.tc : Thread nD τ).loc main_arg1)) (m ((c.tc : Thread nD τ).loc main_arg5)) (w4_src m ρ c) (w4_dst m ρ c) (w4_weight m ρ c) (w4_table m ρ c)
theorem w5_bias (q : Fin 16) :
    (W5 m ρ c (Proc.devRef .tc main_v46) : (⟨S1x16, .f32⟩ : BufTy).Contents (Elt Ideal)) (ValueIdx.ix2 (0 : Fin 1) q)
      = ((m ((c.tc : Thread nD τ).loc main_arg2)) : (⟨S16, .f32⟩ : BufTy).Contents (Elt Ideal)) (ValueIdx.ix1 q) :=
  (bias16_row (W4 m ρ c) q).trans (congrFun (w4_arg2 m ρ c) _)
theorem w5_src : W5 m ρ c (Proc.devRef .tc main_v3) = val_main_v3 (F := Ideal) (m ((c.tc : Thread nD τ).loc main_arg5)) :=
  (agg16_keeps (W4 m ρ c)).1.trans (w4_src m ρ c)
theorem w5_dst : W5 m ρ c (Proc.devRef .tc main_v6) = val_main_v6 (F := Ideal) (m ((c.tc : Thread nD τ).loc main_arg5)) :=
  (agg16_keeps (W4 m ρ c)).2.1.trans (w4_dst m ρ c)
theorem w5_weight : W5 m ρ c (Proc.devRef .tc main_v32) = val_main_v33 (F := Ideal) (m ((c.tc : Thread nD τ).loc main_arg5)) :=
  (agg16_keeps (W4 m ρ c)).2.2.1.trans (w4_weight m ρ c)
theorem w5_arg3 : W5 m ρ c (Proc.devRef .tc main_arg3) = (m ((c.tc : Thread nD τ).loc main_arg3)) := (agg16_keeps (W4 m ρ c)).2.2.2.1.trans (w4_arg3 m ρ c)
theorem w5_arg4 : W5 m ρ c (Proc.devRef .tc main_arg4) = (m ((c.tc : Thread nD τ).loc main_arg4)) := (agg16_keeps (W4 m ρ c)).2.2.2.2.trans (w4_arg4 m ρ c)

/-! ### After the second region: rectified, biased aggregate times the second weight -/

theorem w6_table : W6 m ρ c (Proc.devRef .tc main_v47) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (W6_arr m ρ c 3).trans ((layer2_array (V5 m ρ) c).trans ?_)
  rw [show V5 m ρ c main_v45 = val_main_v45 (F := Ideal) (m ((c.tc : Thread nD τ).loc main_arg0)) (m ((c.tc : Thread nD τ).loc main_arg1)) (m ((c.tc : Thread nD τ).loc main_arg5)) from w5_agg m ρ c,
    show V5 m ρ c main_arg3 = (m ((c.tc : Thread nD τ).loc main_arg3)) from w5_arg3 m ρ c]
  exact (ref_rectifiedRowsTimes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (V5 m ρ c main_v46) (w5_bias m ρ c)).symm
theorem w6_src : W6 m ρ c (Proc.devRef .tc main_v3) = val_main_v3 (F := Ideal) (m ((c.tc : Thread nD τ).loc main_arg5)) :=
  (W6_of_ne m ρ c main_v3 (by decide)).trans (w5_src m ρ c)
theorem w6_dst : W6 m ρ c (Proc.devRef .tc main_v6) = val_main_v6 (F := Ideal) (m ((c.tc : Thread nD τ).loc main_arg5)) :=
  (W6_of_ne m ρ c main_v6 (by decide)).trans (w5_dst m ρ c)
theorem w6_weight : W6 m ρ c (Proc.devRef .tc main_v32) = val_main_v66 (F := Ideal) (m ((c.tc : Thread nD τ).loc main_arg5)) :=
  ((W6_of_ne m ρ c main_v32 (by decide)).trans (w5_weight m ρ c)).trans (edge_weight_again (m ((c.tc : Thread nD τ).loc main_arg5))).symm
theorem w6_arg4 : W6 m ρ c (Proc.devRef .tc main_arg4) = (m ((c.tc : Thread nD τ).loc main_arg4)) := (W6_of_ne m ρ c main_arg4 (by decide)).trans (w5_arg4 m ρ c)

/-! ### After the second aggregation: the third region's entry -/

theorem w7_agg : W7 m ρ c (Proc.devRef .tc main_v59) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  aggregate2 (W6 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (w6_src m ρ c) (w6_dst m ρ c) (w6_weight m ρ c) (w6_table m ρ c)
theorem w7_bias (j : Fin 2) :
    (W7 m ρ c (Proc.devRef .tc main_v60) : (⟨S1x2, .f32⟩ : BufTy).Contents (Elt Ideal)) (ValueIdx.ix2 (0 : Fin 1) j)
      = ((m ((c.tc : Thread nD τ).loc main_arg4)) : (⟨S2, .f32⟩ : BufTy).Contents (Elt Ideal)) (ValueIdx.ix1 j) :=
  (bias2_row (W6 m ρ c) j).trans (congrFun (w6_arg4 m ρ c) _)

/-! ### The result -/

/-- The result buffer after the third region holds the reference's result stage of the arguments as launched. -/
theorem result_eq : W8 m ρ c (Proc.devRef .tc main_v61) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ((logsoftmax_array (V7 m ρ) c).trans ?_)
  rw [show V7 m ρ c main_v59 = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) from w7_agg m ρ c]
  exact (ref_logSoftmaxRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (V7 m ρ c main_v60) (w7_bias m ρ c)).symm

end Chain

end Cert.Bridge

end
-- ==== Proof.lean ====
/- A two-layer graph convolution with symmetric degree normalisation and a final row-wise log-softmax, against its jnp
   reference, over the extended reals.

   Both programs compute, from the index array alone, the edge lists with one self-loop per node, the in-degrees, and
   the edge weights deg^(-1/2)[src] · deg^(-1/2)[dst]; both aggregate a node table T by
   segment_sum(weight · T[src], dst). They differ only in where the three dense stages run: the kernel computes
   x · W1, then max(A1 + b1, 0) · W2, then log_softmax(A2 + b2) in three row-tiled regions of eight blocks of 25000
   rows, feeding its matrix units through a narrower float format, where the reference applies whole-array host
   operations. At the ideal values a change of float format is the identity and every sum is exact, each row of a
   dense stage depends only on the same row of its table, and the eight blocks tile all 200000 rows: so each region
   leaves the array the reference's stage holds (Proof/Linear1, Layer2, LogSoftmax against Proof/Spec and
   Proof/RefSpec), the host operations in between apply the same gathers and scatter-adds to equal operands
   (Proof/HostChain), and the two results are one function of the arguments. No algebraic law beyond the
   commutative monoid of extended-real addition under the sums is used, so the finiteness of the inputs is never
   opened. The kernel's idealization rewrote no operation: `preserves` is `True`.

   The three frames: the two kernel programs' are the generated frame certificates; the reference's is its run with
   the result dropped. -/
import proofs.«104902_j22789096472662_1_alg».proof.Defs
import proofs.«104902_j22789096472662_1_alg».proof.Proof.Gen.Kernel
import proofs.«104902_j22789096472662_1_alg».proof.Proof.Gen.Kernel.Frame
import proofs.«104902_j22789096472662_1_alg».proof.Proof.Gen.KernelIdeal
import proofs.«104902_j22789096472662_1_alg».proof.Proof.Gen.KernelIdeal.Frame
import proofs.«104902_j22789096472662_1_alg».proof.Proof.Gen.ReferenceIdeal
import proofs.«104902_j22789096472662_1_alg».proof.Proof.Gen.Pre_finite_inputs
import proofs.«104902_j22789096472662_1_alg».proof.Proof.KernelRun
import proofs.«104902_j22789096472662_1_alg».proof.Proof.RefRun
import proofs.«104902_j22789096472662_1_alg».proof.Proof.RefRead
import proofs.«104902_j22789096472662_1_alg».proof.Proof.HostChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs run, and the kernel's result buffer — the third region's
    array after its write-backs — holds the reference's result stage of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v61),
    Cert.KernelIdeal.GenV.run_valued m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v82_eq, (hagree c).1, (hagree c).2.1, (hagree c).2.2.1, (hagree c).2.2.2.1,
    (hagree c).2.2.2.2.1, (hagree c).2.2.2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
